-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000x64 : Shape := ⟨2, ![100000, 64]⟩
abbrev S16x64 : Shape := ⟨2, ![16, 64]⟩
abbrev S3200000 : Shape := ⟨1, ![3200000]⟩
abbrev S2500000 : Shape := ⟨1, ![2500000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S16x64 : S_.BroadcastsInDim S16x64 (![] : Fin 0 → Fin S16x64.rank)
  reducesTo_S16x64_S_d0_1 : S16x64.ReducesTo [0, 1] S_
  bcast_S_S3200000 : S_.BroadcastsInDim S3200000 (![] : Fin 0 → Fin S3200000.rank)
  reducesTo_S3200000_S_d0 : S3200000.ReducesTo [0] S_
  bcast_S_S2500000 : S_.BroadcastsInDim S2500000 (![] : Fin 0 → Fin S2500000.rank)
  reducesTo_S2500000_S_d0 : S2500000.ReducesTo [0] S_

variable [Facts]

def fn_part1 {F : FTy → Type} [FloatOps F] (main_arg4 : FVec F S2500000 .f32) (main_arg7 : IVec S3200000 32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_v19 : FVec F S2500000 .f32 := Host.absf main_arg4
  let main_cst_6 : FVec F S_ .f32 := constant S_ .f32 0x7F800000#32
  let main_v20 : FVec F S2500000 .f32 := broadcastInDim S2500000 ![] bcast_S_S2500000 main_cst_6
  let main_v21 : IVec S2500000 1 := cmpf .olt main_v19 main_v20
  let main_c_7 : IVec S_ 1 := constantI S_ 1 1#1
  let main_v22 : IVec S_ 1 := (fun x v => Host.reduce IntOp.andi x v reducesTo_S2500000_S_d0 h_S_) main_v21 main_c_7
  let main_v23 : IVec S_ 1 := andi main_v18 main_v22
  let main_c_8 : IVec S_ 32 := constantI S_ 32 1#32
  let main_v24 : IVec S3200000 32 := broadcastInDim S3200000 ![] bcast_S_S3200000 main_c_8
  let main_v25 : IVec S3200000 1 := cmpi .sge main_arg7 main_v24
  let main_c_9 : IVec S_ 1 := constantI S_ 1 1#1
  let main_v26 : IVec S_ 1 := (fun x v => Host.reduce IntOp.andi x v reducesTo_S3200000_S_d0 h_S_) main_v25 main_c_9
  let main_v27 : IVec S_ 1 := andi main_v23 main_v26
  main_v27

def fn {F : FTy → Type} [FloatOps F] (main_arg0 : FVec F S50000x64 .f32) (main_arg1 : FVec F S100000x64 .f32) (main_arg2 : FVec F S16x64 .f32) (main_arg3 : FVec F S3200000 .f32) (main_arg4 : FVec F S2500000 .f32) (main_arg5 : IVec S3200000 32) (main_arg6 : IVec S3200000 32) (main_arg7 : IVec S3200000 32) (main_arg8 : IVec S2500000 32) (main_arg9 : IVec S2500000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S3200000 .f32 := Host.absf main_arg3
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg4 main_arg7 main_v13 main_v16
-- ==== Kernel.lean ====
abbrev S50000x64 : Shape := ⟨2, ![50000, 64]⟩
abbrev S100000x64 : Shape := ⟨2, ![100000, 64]⟩
abbrev S16x64 : Shape := ⟨2, ![16, 64]⟩
abbrev S3200000 : Shape := ⟨1, ![3200000]⟩
abbrev S2500000 : Shape := ⟨1, ![2500000]⟩
abbrev S3200000x1 : Shape := ⟨2, ![3200000, 1]⟩
abbrev S_ : Shape := ⟨0, ![]⟩
abbrev S3200000x64 : Shape := ⟨2, ![3200000, 64]⟩
abbrev S5000x64 : Shape := ⟨2, ![5000, 64]⟩
abbrev S5000x1 : Shape := ⟨2, ![5000, 1]⟩
abbrev S5000x16 : Shape := ⟨2, ![5000, 16]⟩
abbrev S2500000x1 : Shape := ⟨2, ![2500000, 1]⟩
abbrev S2500000x64 : Shape := ⟨2, ![2500000, 64]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 116
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S100000x64, .f32⟩
  | .hbm, ⟨2, _⟩ => ⟨S16x64, .f32⟩
  | .hbm, ⟨3, _⟩ => ⟨S3200000, .f32⟩
  | .hbm, ⟨4, _⟩ => ⟨S2500000, .f32⟩
  | .hbm, ⟨5, _⟩ => ⟨S3200000, .i32⟩
  | .hbm, ⟨6, _⟩ => ⟨S3200000, .i32⟩
  | .hbm, ⟨7, _⟩ => ⟨S3200000, .i32⟩
  | .hbm, ⟨8, _⟩ => ⟨S2500000, .i32⟩
  | .hbm, ⟨9, _⟩ => ⟨S2500000, .i32⟩
  | .hbm, ⟨10, _⟩ => ⟨S3200000x1, .f32⟩
  | .hbm, ⟨11, _⟩ => ⟨S3200000x1, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S_, .i32⟩
  | .hbm, ⟨27, _⟩ => ⟨S2500000, .i32⟩
  | .hbm, ⟨28, _⟩ => ⟨S2500000, .i1⟩
  | .hbm, ⟨29, _⟩ => ⟨S_, .i32⟩
  | .hbm, ⟨30, _⟩ => ⟨S2500000, .i32⟩
  | .hbm, ⟨31, _⟩ => ⟨S2500000, .i32⟩
  | .hbm, ⟨32, _⟩ => ⟨S2500000, .i32⟩
  | .hbm, ⟨33, _⟩ => ⟨S2500000x1, .i32⟩
  | .hbm, ⟨34, _⟩ => ⟨S2500000x64, .f32⟩
  | .hbm, ⟨35, _⟩ => ⟨S2500000x1, .f32⟩
  | .hbm, ⟨36, _⟩ => ⟨S2500000x64, .f32⟩
  | .hbm, ⟨37, _⟩ => ⟨S2500000x64, .f32⟩
  | .hbm, ⟨38, _⟩ => ⟨S_, .f32⟩
  | .hbm, ⟨39, _⟩ => ⟨S50000x64, .f32⟩
  | .hbm, ⟨40, _⟩ => ⟨S2500000x1, .i32⟩
  | .hbm, ⟨41, _⟩ => ⟨S50000x64, .f32⟩
  | .hbm, ⟨42, _⟩ => ⟨S100000x64, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S50000x64, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x64, .f32⟩
  | .hbm, ⟨61, _⟩ => ⟨S50000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x64, .f32⟩
  | .hbm, ⟨73, _⟩ => ⟨S3200000x64, .f32⟩
  | .hbm, ⟨74, _⟩ => ⟨S_, .f32⟩
  | .hbm, ⟨75, _⟩ => ⟨S100000x64, .f32⟩
  | .hbm, ⟨76, _⟩ => ⟨S3200000x1, .i32⟩
  | .hbm, ⟨77, _⟩ => ⟨S100000x64, .f32⟩
  | .hbm, ⟨78, _⟩ => ⟨S_, .i32⟩
  | .hbm, ⟨79, _⟩ => ⟨S2500000, .i32⟩
  | .hbm, ⟨80, _⟩ => ⟨S2500000, .i1⟩
  | .hbm, ⟨81, _⟩ => ⟨S_, .i32⟩
  | .hbm, ⟨82, _⟩ => ⟨S2500000, .i32⟩
  | .hbm, ⟨83, _⟩ => ⟨S2500000, .i32⟩
  | .hbm, ⟨84, _⟩ => ⟨S2500000, .i32⟩
  | .hbm, ⟨85, _⟩ => ⟨S2500000x1, .i32⟩
  | .hbm, ⟨86, _⟩ => ⟨S2500000x64, .f32⟩
  | .hbm, ⟨87, _⟩ => ⟨S2500000x1, .f32⟩
  | .hbm, ⟨88, _⟩ => ⟨S2500000x64, .f32⟩
  | .hbm, ⟨89, _⟩ => ⟨S2500000x64, .f32⟩
  | .hbm, ⟨90, _⟩ => ⟨S_, .f32⟩
  | .hbm, ⟨91, _⟩ => ⟨S50000x64, .f32⟩
  | .hbm, ⟨92, _⟩ => ⟨S2500000x1, .i32⟩
  | .hbm, ⟨93, _⟩ => ⟨S50000x64, .f32⟩
  | .hbm, ⟨94, _⟩ => ⟨S100000x64, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S_, .f32⟩
  | .hbm, ⟨100, _⟩ => ⟨S100000x1, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S50000x64, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S50000x1, .f32⟩
  | .hbm, ⟨109, _⟩ => ⟨S_, .f32⟩
  | .hbm, ⟨110, _⟩ => ⟨S50000x1, .f32⟩
  | .hbm, ⟨111, _⟩ => ⟨S50000x1, .f32⟩
  | .hbm, ⟨112, _⟩ => ⟨S50000x64, .f32⟩
  | .hbm, ⟨113, _⟩ => ⟨S50000x64, .f32⟩
  | .hbm, ⟨114, _⟩ => ⟨S100000x64, .f32⟩
  | .hbm, ⟨115, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .i32⟩
  | .local _ .vmem, ⟨5, _⟩ => ⟨S5000x1, .i32⟩
  | .local _ .vmem, ⟨6, _⟩ => ⟨S16x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S5000x1, .i32⟩
  | .local _ .vmem, ⟨14, _⟩ => ⟨S5000x1, .i32⟩
  | .local _ .vmem, ⟨15, _⟩ => ⟨S16x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![640], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![640], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S3200000_S3200000x1 : S3200000.ShapeCasts S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  inb_S16x64_S16x64_0_0 : ∀ a, (![0, 0] : Fin 2 → Nat) a + S16x64.size a ≤ S16x64.size a
  h_S16x64 : 0 < S16x64.numel
  bcast_S_S100000x64 : S_.BroadcastsInDim S100000x64 (![] : Fin 0 → Fin S100000x64.rank)
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S2500000x1_S2500000x64_0_1 : S2500000x1.BroadcastsInDim S2500000x64 (![0, 1] : Fin 2 → Fin S2500000x64.rank)
  bcast_S_S50000x64 : S_.BroadcastsInDim S50000x64 (![] : Fin 0 → Fin S50000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S100000x64_S3200000x1_S3200000x64_1_0_n_n_0_1_164_wf : GatherDims.WF S100000x64 S3200000x1 S3200000x64 [1] [0] [] [0] [] 1 ![1, 64]
  dot_S5000x16_S16x64_S5000x64_1_0_0_1_n_n_wf : DotDims.WF S5000x16 S16x64 S5000x64 [1] [0] [0] [1] [] []
  scatter_S100000x64_S3200000x1_S3200000x64_1_0_0_1_wf : ScatterDims.WF S100000x64 S3200000x1 S3200000x64 [1] [0] [0] 1
  gather_S100000x64_S2500000x1_S2500000x64_1_0_n_n_0_1_164_wf : GatherDims.WF S100000x64 S2500000x1 S2500000x64 [1] [0] [] [0] [] 1 ![1, 64]
  scatter_S50000x64_S2500000x1_S2500000x64_1_0_0_1_wf : ScatterDims.WF S50000x64 S2500000x1 S2500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S3200000x64.size a
  hwx0_0 : ∀ i : grid0.Coords, EltTy.bits .f32 = 32 ∨ (Rect.block (s := S3200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S3200000x1.size a
  hwx0_1 : ∀ i : grid0.Coords, EltTy.bits .f32 = 32 ∨ (Rect.block (s := S3200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S3200000x1.size a
  hwx0_2 : ∀ i : grid0.Coords, EltTy.bits .i32 = 32 ∨ (Rect.block (s := S3200000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S3200000x64.size a
  hwx0_4 : ∀ i : grid0.Coords, EltTy.bits .f32 = 32 ∨ (Rect.block (s := S3200000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S3200000x64.size a
  hwx1_0 : ∀ i : grid1.Coords, EltTy.bits .f32 = 32 ∨ (Rect.block (s := S3200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S3200000x1.size a
  hwx1_1 : ∀ i : grid1.Coords, EltTy.bits .f32 = 32 ∨ (Rect.block (s := S3200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S3200000x1.size a
  hwx1_2 : ∀ i : grid1.Coords, EltTy.bits .i32 = 32 ∨ (Rect.block (s := S3200000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S3200000x64.size a
  hwx1_4 : ∀ i : grid1.Coords, EltTy.bits .f32 = 32 ∨ (Rect.block (s := S3200000x64) S5000x64.size (cc1_transform_4 i) (hinb1_4 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S2500000x1_S2500000x64_1_0_n_n_0_1_164 : GatherDims S100000x64 S2500000x1 S2500000x64 where
  offsetDims := [1]
  collapsedSliceDims := [0]
  operandBatchingDims := []
  startIndicesBatchingDims := []
  startIndexMap := [0]
  indexVectorDim := 1
  sliceSizes := ![1, 64]
  wf := gather_S100000x64_S2500000x1_S2500000x64_1_0_n_n_0_1_164_wf
def scatter_S50000x64_S2500000x1_S2500000x64_1_0_0_1 : ScatterDims S50000x64 S2500000x1 S2500000x64 where
  updateWindowDims := [1]
  insertedWindowDims := [0]
  scatterDimsToOperandDims := [0]
  indexVectorDim := 1
  wf := scatter_S50000x64_S2500000x1_S2500000x64_1_0_0_1_wf

abbrev win0_0 : Pipeline.Window sig grid0 :=
  Pipeline.Window.ofSpec (Memref.whole main_v8) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S100000x64 : Shape := ⟨2, ![100000, 64]⟩
abbrev S16x64 : Shape := ⟨2, ![16, 64]⟩
abbrev S3200000 : Shape := ⟨1, ![3200000]⟩
abbrev S2500000 : Shape := ⟨1, ![2500000]⟩
abbrev S_ : Shape := ⟨0, ![]⟩
abbrev S3200000x1 : Shape := ⟨2, ![3200000, 1]⟩
abbrev S3200000x64 : Shape := ⟨2, ![3200000, 64]⟩
abbrev S2500000x1 : Shape := ⟨2, ![2500000, 1]⟩
abbrev S2500000x64 : Shape := ⟨2, ![2500000, 64]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 144
  | .vmem => 0
  | .smem => 0
  | _ => 0

abbrev hbmTy0_0 (i : Nat) : BufTy := match i % 128 with
  | 0 => ⟨S50000x64, .f32⟩
  | 1 => ⟨S100000x64, .f32⟩
  | 2 => ⟨S16x64, .f32⟩
  | 3 => ⟨S3200000, .f32⟩
  | 4 => ⟨S2500000, .f32⟩
  | 5 => ⟨S3200000, .i32⟩
  | 6 => ⟨S3200000, .i32⟩
  | 7 => ⟨S3200000, .i32⟩
  | 8 => ⟨S2500000, .i32⟩
  | 9 => ⟨S2500000, .i32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x64, .f32⟩
  | 19 => ⟨S3200000x1, .f32⟩
  | 20 => ⟨S3200000x64, .f32⟩
  | 21 => ⟨S3200000x64, .f32⟩
  | 22 => ⟨S_, .i32⟩
  | 23 => ⟨S3200000, .i32⟩
  | 24 => ⟨S3200000, .i32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000x64, .f32⟩
  | 34 => ⟨S3200000x64, .f32⟩
  | 35 => ⟨S_, .f32⟩
  | 36 => ⟨S100000x64, .f32⟩
  | 37 => ⟨S3200000x1, .i32⟩
  | 38 => ⟨S100000x64, .f32⟩
  | 39 => ⟨S2500000x1, .f32⟩
  | 40 => ⟨S_, .i32⟩
  | 41 => ⟨S2500000, .i32⟩
  | 42 => ⟨S2500000, .i1⟩
  | 43 => ⟨S_, .i32⟩
  | 44 => ⟨S2500000, .i32⟩
  | 45 => ⟨S2500000, .i32⟩
  | 46 => ⟨S2500000, .i32⟩
  | 47 => ⟨S2500000x1, .i32⟩
  | 48 => ⟨S2500000x64, .f32⟩
  | 49 => ⟨S2500000x64, .f32⟩
  | 50 => ⟨S2500000x64, .f32⟩
  | 51 => ⟨S_, .f32⟩
  | 52 => ⟨S50000x64, .f32⟩
  | 53 => ⟨S2500000x1, .i32⟩
  | 54 => ⟨S50000x64, .f32⟩
  | 55 => ⟨S100000x64, .f32⟩
  | 56 => ⟨S_, .f32⟩
  | 57 => ⟨S100000, .f32⟩
  | 58 => ⟨S100000x1, .f32⟩
  | 59 => ⟨S100000x1, .f32⟩
  | 60 => ⟨S_, .f32⟩
  | 61 => ⟨S100000x1, .f32⟩
  | 62 => ⟨S100000x1, .f32⟩
  | 63 => ⟨S100000x64, .f32⟩
  | 64 => ⟨S100000x64, .f32⟩
  | 65 => ⟨S50000x64, .f32⟩
  | 66 => ⟨S_, .f32⟩
  | 67 => ⟨S50000, .f32⟩
  | 68 => ⟨S50000x1, .f32⟩
  | 69 => ⟨S50000x1, .f32⟩
  | 70 => ⟨S_, .f32⟩
  | 71 => ⟨S50000x1, .f32⟩
  | 72 => ⟨S50000x1, .f32⟩
  | 73 => ⟨S50000x64, .f32⟩
  | 74 => ⟨S50000x64, .f32⟩
  | 75 => ⟨S100000x64, .f32⟩
  | 76 => ⟨S50000x64, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S3200000x1, .f32⟩
  | 87 => ⟨S3200000x64, .f32⟩
  | 88 => ⟨S3200000x64, .f32⟩
  | 89 => ⟨S_, .i32⟩
  | 90 => ⟨S3200000, .i32⟩
  | 91 => ⟨S3200000, .i32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .f32⟩
  | 101 => ⟨S3200000x64, .f32⟩
  | 102 => ⟨S_, .f32⟩
  | 103 => ⟨S100000x64, .f32⟩
  | 104 => ⟨S3200000x1, .i32⟩
  | 105 => ⟨S100000x64, .f32⟩
  | 106 => ⟨S2500000x1, .f32⟩
  | 107 => ⟨S_, .i32⟩
  | 108 => ⟨S2500000, .i32⟩
  | 109 => ⟨S2500000, .i1⟩
  | 110 => ⟨S_, .i32⟩
  | 111 => ⟨S2500000, .i32⟩
  | 112 => ⟨S2500000, .i32⟩
  | 113 => ⟨S2500000, .i32⟩
  | 114 => ⟨S2500000x1, .i32⟩
  | 115 => ⟨S2500000x64, .f32⟩
  | 116 => ⟨S2500000x64, .f32⟩
  | 117 => ⟨S2500000x64, .f32⟩
  | 118 => ⟨S_, .f32⟩
  | 119 => ⟨S50000x64, .f32⟩
  | 120 => ⟨S2500000x1, .i32⟩
  | 121 => ⟨S50000x64, .f32⟩
  | 122 => ⟨S100000x64, .f32⟩
  | 123 => ⟨S_, .f32⟩
  | 124 => ⟨S100000, .f32⟩
  | 125 => ⟨S100000x1, .f32⟩
  | 126 => ⟨S100000x1, .f32⟩
  | 127 => ⟨S_, .f32⟩
  | _ => ⟨S50000x64, .f32⟩

abbrev hbmTy0_1 (i : Nat) : BufTy := match i % 128 with
  | 0 => ⟨S100000x1, .f32⟩
  | 1 => ⟨S100000x1, .f32⟩
  | 2 => ⟨S100000x64, .f32⟩
  | 3 => ⟨S100000x64, .f32⟩
  | 4 => ⟨S50000x64, .f32⟩
  | 5 => ⟨S_, .f32⟩
  | 6 => ⟨S50000, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S50000x64, .f32⟩
  | 13 => ⟨S50000x64, .f32⟩
  | 14 => ⟨S100000x64, .f32⟩
  | 15 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_20 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_22 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S2500000_S2500000x1_0 : S2500000.BroadcastsInDim S2500000x1 (![0] : Fin 1 → Fin S2500000x1.rank)
  bcast_S_S2500000 : S_.BroadcastsInDim S2500000 (![] : Fin 0 → Fin S2500000.rank)
  bcast_S2500000x1_S2500000x64_0_1 : S2500000x1.BroadcastsInDim S2500000x64 (![0, 1] : Fin 2 → Fin S2500000x64.rank)
  bcast_S_S50000x64 : S_.BroadcastsInDim S50000x64 (![] : Fin 0 → Fin S50000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S100000x64_S3200000x1_S3200000x64_1_0_n_n_0_1_164_wf : GatherDims.WF S100000x64 S3200000x1 S3200000x64 [1] [0] [] [0] [] 1 ![1, 64]
  gather_S16x64_S3200000x1_S3200000x64_1_0_n_n_0_1_164_wf : GatherDims.WF S16x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S2500000x1_S2500000x64_1_0_n_n_0_1_164_wf : GatherDims.WF S100000x64 S2500000x1 S2500000x64 [1] [0] [] [0] [] 1 ![1, 64]
  scatter_S50000x64_S2500000x1_S2500000x64_1_0_0_1_wf : ScatterDims.WF S50000x64 S2500000x1 S2500000x64 [1] [0] [0] 1

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def gather_S16x64_S3200000x1_S3200000x64_1_0_n_n_0_1_164 : GatherDims S16x64 S3200000x1 S3200000x64 where
  offsetDims := [1]
  collapsedSliceDims := [0]
  operandBatchingDims := []
  startIndicesBatchingDims := []
  startIndexMap := [0]
  indexVectorDim := 1
  sliceSizes := ![1, 64]
  wf := gather_S16x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S2500000x1_S2500000x64_1_0_n_n_0_1_164 : GatherDims S100000x64 S2500000x1 S2500000x64 where
  offsetDims := [1]
  collapsedSliceDims := [0]
  operandBatchingDims := []
  startIndicesBatchingDims := []
  startIndexMap := [0]
  indexVectorDim := 1
  sliceSizes := ![1, 64]
  wf := gather_S100000x64_S2500000x1_S2500000x64_1_0_n_n_0_1_164_wf
def scatter_S50000x64_S2500000x1_S2500000x64_1_0_0_1 : ScatterDims S50000x64 S2500000x1 S2500000x64 where
  updateWindowDims := [1]
  insertedWindowDims := [0]
  scatterDimsToOperandDims := [0]
  indexVectorDim := 1
  wf := scatter_S50000x64_S2500000x1_S2500000x64_1_0_0_1_wf

class Facts : Prop extends Facts₀ where

variable [Facts]
-- ==== Proof.Spec.lean ====
/-
  The two programs as ONE composition of array functions.

  Both programs run two rounds of message passing over a knowledge graph.  A round takes the current entity
  table E and produces
    * the edge messages  N = msg (E[tail])            (one row per edge: the tail entity's row, scaled),
    * the entity update  unitE (aggE N head)          (messages summed per head entity, rows scaled to unit length),
    * the user update    unitU (aggU (vals · E[cols]) rows).
  The results are  entity + E₁ + E₂  and  user + U₁ + U₂, the second round reading the first round's entity update.
  The kernel and the reference differ ONLY in how the edge messages are computed from the gathered rows, so the whole
  composition is stated here once, over an arbitrary message function `msg`; everything else is shared text.
-/
import proofs.«412847_j996432412685_3_alg».proof.Proof.Gen.KernelIdeal

noncomputable section

namespace Cert.KernelIdeal.Spec

open Idealize.ShloMosaic Cert.KernelIdeal Cert.KernelIdeal.Facts₀ Cert.KernelIdeal.Facts

variable {F : FTy → Type} [FloatOps F]

/-- The rows of the entity table `E` at the edge ids `ids`, a negative id counted from the end of the table. -/
def rowsE (E : FVec F S100000x64 .f32) (ids : IVec S3200000 32) : FVec F S3200000x64 .f32 :=
  Host.gather gather_S100000x64_S3200000x1_S3200000x64_1_0_n_n_0_1_164 E
    (broadcastInDim S3200000x1 ![0] bcast_S3200000_S3200000x1_0
      (select (cmpi .slt ids (broadcastInDim S3200000 ![] bcast_S_S3200000 (constantI S_ 32 0#32)))
        (addi ids (broadcastInDim S3200000 ![] bcast_S_S3200000 (constantI S_ 32 100000#32))) ids))

/-- The edge messages summed per head entity. -/
def aggE (N : FVec F S3200000x64 .f32) (head : IVec S3200000 32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 head) N

/-- Each row of an entity table divided by the larger of its length and 1e-12. -/
def unitE (A : FVec F S100000x64 .f32) : FVec F S100000x64 .f32 :=
  Host.divf A (broadcastInDim S100000x64 ![0, 1] bcast_S100000x1_S100000x64_0_1
    (maximumf (Host.sqrt (broadcastInDim S100000x1 ![0] bcast_S100000_S100000x1_0
        (Host.reduceAdd (mulf A A) (constant S_ .f32 0x00000000#32) reducesTo_S100000x64_S100000_d1 h_S_)))
      (broadcastInDim S100000x1 ![] bcast_S_S100000x1 (constant S_ .f32 0x2B8CBCCC#32))))

/-- The user-side messages: the rows of `E` at the interaction columns, each scaled by its interaction value. -/
def msgU (E : FVec F S100000x64 .f32) (vals : FVec F S2500000 .f32) (cols : IVec S2500000 32) : FVec F S2500000x64 .f32 :=
  mulf (broadcastInDim S2500000x64 ![0, 1] bcast_S2500000x1_S2500000x64_0_1
      (broadcastInDim S2500000x1 ![0] bcast_S2500000_S2500000x1_0 vals))
    (Host.gather gather_S100000x64_S2500000x1_S2500000x64_1_0_n_n_0_1_164 E
      (broadcastInDim S2500000x1 ![0] bcast_S2500000_S2500000x1_0
        (select (cmpi .slt cols (broadcastInDim S2500000 ![] bcast_S_S2500000 (constantI S_ 32 0#32)))
          (addi cols (broadcastInDim S2500000 ![] bcast_S_S2500000 (constantI S_ 32 100000#32))) cols)))

/-- The user-side messages summed per user. -/
def aggU (M : FVec F S2500000x64 .f32) (rows : IVec S2500000 32) : FVec F S50000x64 .f32 :=
  Host.scatterAdd scatter_S50000x64_S2500000x1_S2500000x64_1_0_0_1
    (broadcastInDim S50000x64 ![] bcast_S_S50000x64 (constant S_ .f32 0x00000000#32))
    (broadcastInDim S2500000x1 ![0] bcast_S2500000_S2500000x1_0 rows) M

/-- Each row of a user table divided by the larger of its length and 1e-12. -/
def unitU (A : FVec F S50000x64 .f32) : FVec F S50000x64 .f32 :=
  Host.divf A (broadcastInDim S50000x64 ![0, 1] bcast_S50000x1_S50000x64_0_1
    (maximumf (Host.sqrt (broadcastInDim S50000x1 ![0] bcast_S50000_S50000x1_0
        (Host.reduceAdd (mulf A A) (constant S_ .f32 0x00000000#32) reducesTo_S50000x64_S50000_d1 h_S_)))
      (broadcastInDim S50000x1 ![] bcast_S_S50000x1 (constant S_ .f32 0x2B8CBCCC#32))))

/-- One round's entity update from the current entity table, over the message function `msg`. -/
def stepE (msg : FVec F S3200000x64 .f32 → FVec F S3200000x64 .f32) (E : FVec F S100000x64 .f32)
    (head tail : IVec S3200000 32) : FVec F S100000x64 .f32 :=
  unitE (aggE (msg (rowsE E tail)) head)

/-- One round's user update from the current entity table. -/
def stepU (E : FVec F S100000x64 .f32) (vals : FVec F S2500000 .f32) (rows cols : IVec S2500000 32) : FVec F S50000x64 .f32 :=
  unitU (aggU (msgU E vals cols) rows)

/-- The entity result: the entity table plus the two rounds' entity updates. -/
def outE (msg : FVec F S3200000x64 .f32 → FVec F S3200000x64 .f32) (ent : FVec F S100000x64 .f32)
    (head tail : IVec S3200000 32) : FVec F S100000x64 .f32 :=
  addf (addf ent (stepE msg ent head tail)) (stepE msg (stepE msg ent head tail) head tail)

/-- The user result: the user table plus the two rounds' user updates, the second from the first round's entities. -/
def outU (msg : FVec F S3200000x64 .f32 → FVec F S3200000x64 .f32) (usr : FVec F S50000x64 .f32)
    (ent : FVec F S100000x64 .f32) (vals : FVec F S2500000 .f32) (head tail : IVec S3200000 32)
    (rows cols : IVec S2500000 32) : FVec F S50000x64 .f32 :=
  addf (addf usr (stepU ent vals rows cols)) (stepU (stepE msg ent head tail) vals rows cols)

end Cert.KernelIdeal.Spec

end
-- ==== Proof.Stretch.lean ====
/-
  What the host operations around the two kernel calls compute, as functions of the buffers they read.

  The kernel's program is three stretches of array operations with a kernel call between each two. From ANY buffer
  contents `W`:
    * the first stretch leaves the gathered tail rows, and the mask and the relation ids as columns;
    * the second leaves the first round's entity update (read again by the second round's two gathers), the first
      partial results  entity + E₁  and  user + U₁, and the second round's gathered tail rows;
    * the third leaves the two results.
  Each is the shared composition of Spec.lean applied to the buffers read; no stretch writes an argument.
-/
import proofs.«412847_j996432412685_3_alg».proof.Proof.Gen.KernelIdeal.Launch
import proofs.«412847_j996432412685_3_alg».proof.Proof.Spec
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen Cert.KernelIdeal.Spec Cert.KernelIdeal.Facts₀ Cert.KernelIdeal.Facts

variable {F : FTy → Type} [FloatOps F]
variable (W : Valuation τ sig (Elt F))

/-! ## The first stretch -/

theorem first_tail : after (hostOps0 (F := F)) W (Proc.devRef .tc main_v8)
    = rowsE (W (Proc.devRef .tc main_arg1)) (W (Proc.devRef .tc main_arg6)) := by
  dsimp only [hostOps0]
  after_results_simp
  rfl

theorem first_mask : after (hostOps0 (F := F)) W (Proc.devRef .tc main_v0)
    = shapeCast S3200000x1 (W (Proc.devRef .tc main_arg3)) Facts₀.shapeCasts_S3200000_S3200000x1 := by
  dsimp only [hostOps0]
  after_results_simp
  rfl

theorem first_rel : after (hostOps0 (F := F)) W (Proc.devRef .tc main_v1)
    = shapeCast S3200000x1 (W (Proc.devRef .tc main_arg7)) Facts₀.shapeCasts_S3200000_S3200000x1 := by
  dsimp only [hostOps0]
  after_results_simp
  rfl

/-- No operation of the first stretch writes an argument. -/
theorem first_keep_arg0 : after (hostOps0 (F := F)) W (Proc.devRef .tc main_arg0) = W (Proc.devRef .tc main_arg0) := by
  dsimp only [hostOps0]
  after_results_simp

theorem first_keep_arg1 : after (hostOps0 (F := F)) W (Proc.devRef .tc main_arg1) = W (Proc.devRef .tc main_arg1) := by
  dsimp only [hostOps0]
  after_results_simp

theorem first_keep_arg2 : after (hostOps0 (F := F)) W (Proc.devRef .tc main_arg2) = W (Proc.devRef .tc main_arg2) := by
  dsimp only [hostOps0]
  after_results_simp

theorem first_keep_arg3 : after (hostOps0 (F := F)) W (Proc.devRef .tc main_arg3) = W (Proc.devRef .tc main_arg3) := by
  dsimp only [hostOps0]
  after_results_simp

theorem first_keep_arg4 : after (hostOps0 (F := F)) W (Proc.devRef .tc main_arg4) = W (Proc.devRef .tc main_arg4) := by
  dsimp only [hostOps0]
  after_results_simp

theorem first_keep_arg5 : after (hostOps0 (F := F)) W (Proc.devRef .tc main_arg5) = W (Proc.devRef .tc main_arg5) := by
  dsimp only [hostOps0]
  after_results_simp

theorem first_keep_arg6 : after (hostOps0 (F := F)) W (Proc.devRef .tc main_arg6) = W (Proc.devRef .tc main_arg6) := by
  dsimp only [hostOps0]
  after_results_simp

theorem first_keep_arg7 : after (hostOps0 (F := F)) W (Proc.devRef .tc main_arg7) = W (Proc.devRef .tc main_arg7) := by
  dsimp only [hostOps0]
  after_results_simp

theorem first_keep_arg8 : after (hostOps0 (F := F)) W (Proc.devRef .tc main_arg8) = W (Proc.devRef .tc main_arg8) := by
  dsimp only [hostOps0]
  after_results_simp

theorem first_keep_arg9 : after (hostOps0 (F := F)) W (Proc.devRef .tc main_arg9) = W (Proc.devRef .tc main_arg9) := by
  dsimp only [hostOps0]
  after_results_simp

/-! ## The second stretch -/

theorem second_ent : after (hostOps1 (F := F)) W (Proc.devRef .tc main_v33)
    = unitE (aggE (W (Proc.devRef .tc main_v9)) (W (Proc.devRef .tc main_arg5))) := by
  dsimp only [hostOps1]
  after_results_simp
  rfl

theorem second_sumE : after (hostOps1 (F := F)) W (Proc.devRef .tc main_v42)
    = addf (W (Proc.devRef .tc main_arg1)) (unitE (aggE (W (Proc.devRef .tc main_v9)) (W (Proc.devRef .tc main_arg5)))) := by
  dsimp only [hostOps1]
  after_results_simp
  rfl

theorem second_sumU : after (hostOps1 (F := F)) W (Proc.devRef .tc main_v43)
    = addf (W (Proc.devRef .tc main_arg0)) (stepU (W (Proc.devRef .tc main_arg1)) (W (Proc.devRef .tc main_arg4))
        (W (Proc.devRef .tc main_arg8)) (W (Proc.devRef .tc main_arg9))) := by
  dsimp only [hostOps1]
  after_results_simp
  rfl

theorem second_tail : after (hostOps1 (F := F)) W (Proc.devRef .tc main_v50)
    = rowsE (unitE (aggE (W (Proc.devRef .tc main_v9)) (W (Proc.devRef .tc main_arg5)))) (W (Proc.devRef .tc main_arg6)) := by
  dsimp only [hostOps1]
  after_results_simp
  rfl

/-- No operation of the second stretch writes an argument, or the mask and relation-id columns. -/
theorem second_keep_arg0 : after (hostOps1 (F := F)) W (Proc.devRef .tc main_arg0) = W (Proc.devRef .tc main_arg0) := by
  dsimp only [hostOps1]
  after_results_simp

theorem second_keep_arg1 : after (hostOps1 (F := F)) W (Proc.devRef .tc main_arg1) = W (Proc.devRef .tc main_arg1) := by
  dsimp only [hostOps1]
  after_results_simp

theorem second_keep_arg2 : after (hostOps1 (F := F)) W (Proc.devRef .tc main_arg2) = W (Proc.devRef .tc main_arg2) := by
  dsimp only [hostOps1]
  after_results_simp

theorem second_keep_arg3 : after (hostOps1 (F := F)) W (Proc.devRef .tc main_arg3) = W (Proc.devRef .tc main_arg3) := by
  dsimp only [hostOps1]
  after_results_simp

theorem second_keep_arg4 : after (hostOps1 (F := F)) W (Proc.devRef .tc main_arg4) = W (Proc.devRef .tc main_arg4) := by
  dsimp only [hostOps1]
  after_results_simp

theorem second_keep_arg5 : after (hostOps1 (F := F)) W (Proc.devRef .tc main_arg5) = W (Proc.devRef .tc main_arg5) := by
  dsimp only [hostOps1]
  after_results_simp

theorem second_keep_arg6 : after (hostOps1 (F := F)) W (Proc.devRef .tc main_arg6) = W (Proc.devRef .tc main_arg6) := by
  dsimp only [hostOps1]
  after_results_simp

theorem second_keep_arg7 : after (hostOps1 (F := F)) W (Proc.devRef .tc main_arg7) = W (Proc.devRef .tc main_arg7) := by
  dsimp only [hostOps1]
  after_results_simp

theorem second_keep_arg8 : after (hostOps1 (F := F)) W (Proc.devRef .tc main_arg8) = W (Proc.devRef .tc main_arg8) := by
  dsimp only [hostOps1]
  after_results_simp

theorem second_keep_arg9 : after (hostOps1 (F := F)) W (Proc.devRef .tc main_arg9) = W (Proc.devRef .tc main_arg9) := by
  dsimp only [hostOps1]
  after_results_simp

theorem second_keep_v0 : after (hostOps1 (F := F)) W (Proc.devRef .tc main_v0) = W (Proc.devRef .tc main_v0) := by
  dsimp only [hostOps1]
  after_results_simp

theorem second_keep_v1 : after (hostOps1 (F := F)) W (Proc.devRef .tc main_v1) = W (Proc.devRef .tc main_v1) := by
  dsimp only [hostOps1]
  after_results_simp

/-! ## The third stretch -/

theorem third_outE : after (hostOps2 (F := F)) W (Proc.devRef .tc main_v84)
    = addf (W (Proc.devRef .tc main_v42)) (unitE (aggE (W (Proc.devRef .tc main_v51)) (W (Proc.devRef .tc main_arg5)))) := by
  dsimp only [hostOps2]
  after_results_simp
  rfl

theorem third_outU : after (hostOps2 (F := F)) W (Proc.devRef .tc main_v85)
    = addf (W (Proc.devRef .tc main_v43)) (stepU (W (Proc.devRef .tc main_v33)) (W (Proc.devRef .tc main_arg4))
        (W (Proc.devRef .tc main_arg8)) (W (Proc.devRef .tc main_arg9))) := by
  dsimp only [hostOps2]
  after_results_simp
  rfl

end Cert.KernelIdeal.Stretch

end
-- ==== Proof.Msg.lean ====
/-
  The edge messages as the kernel computes them, and the row selection behind them.

  For an edge with relation id e the kernel takes row  clip(e − 1, 0, 15)  of the 16-row weight table. It does so
  without indexing: it builds the row  onehot[r] = (mask if r = that row else 0)  and multiplies it into the table,
  so the selected row arrives already scaled by the edge's mask. Over the extended reals a product with 0 is 0
  whatever the other factor, and a sum with a single non-zero term is that term, so the product's entry is
  mask · weight[row, q]  for every table, finite or not.
-/
import Mathlib.Data.EReal.Operations
import Idealize.ShloMosaic.Lib.ValueIdx
import Idealize.ShloMosaic.PureOps.Ideal

noncomputable section

namespace Cert.Msg

open Idealize.ShloMosaic Idealize.ShloMosaic.ValueIdx

/-- The relation id less one, clipped into 0 … 15, as a 32-bit word: the kernel's row of the weight table. -/
def relWord (e : BitVec 32) : BitVec 32 := IntOp.minsi 15#32 (IntOp.maxsi 0#32 (IntOp.subi e 1#32))

/-- The clipped word is one of 0 … 15. -/
theorem relWord_lt (e : BitVec 32) : (relWord e).toNat < 16 := by
  unfold relWord IntOp.minsi IntOp.maxsi IntOp.subi
  generalize e - 1#32 = x
  -- the signed reading of a word: the unsigned one below 2^31, and 2^32 less from there on
  have hx : (x.toInt = (x.toNat : Int) ∧ x.toNat < 2147483648) ∨
      (x.toInt = (x.toNat : Int) - 4294967296 ∧ 2147483648 ≤ x.toNat) := by
    have := x.isLt
    rw [BitVec.toInt_eq_toNat_cond]
    split <;> omega
  have h0 : (0#32).toInt = 0 := by decide
  have h15 : (15#32).toInt = 15 := by decide
  by_cases h1 : x.slt 0#32 = true
  · rw [if_pos h1]; decide
  · rw [if_neg h1]
    by_cases h2 : (15#32).slt x = true
    · rw [if_pos h2]; decide
    · rw [if_neg h2]
      rw [BitVec.slt_iff_toInt_lt] at h1 h2
      omega

/-- The kernel's row of the weight table for relation id `e`. -/
def relRow (e : BitVec 32) : Fin 16 := ⟨(relWord e).toNat, relWord_lt e⟩

/-- Row `r` of the table is the selected one exactly when the clipped word is the number `r`. -/
theorem relWord_eq_iff (e : BitVec 32) (r : Fin 16) : relWord e = BitVec.ofNat 32 r.val ↔ relRow e = r := by
  constructor
  · intro h
    apply Fin.ext
    show (relWord e).toNat = r.val
    rw [h, BitVec.toNat_ofNat]
    have := r.isLt
    omega
  · intro h
    have h' : (relWord e).toNat = r.val := congrArg Fin.val h
    apply BitVec.eq_of_toNat_eq
    rw [BitVec.toNat_ofNat, h']
    have := r.isLt
    omega

/-- For a signed id at least 1, the id less one is a non-negative number below 2^31: its signed and unsigned
    readings agree. -/
private theorem pred_of_pos (e : BitVec 32) (h : (1#32).sle e = true) :
    (e - 1#32).toInt = ((e - 1#32).toNat : Int) ∧ (e - 1#32).toNat < 2147483648 := by
  have h1 : (1#32).toInt = 1 := by decide
  rw [BitVec.sle_iff_toInt_le, h1] at h
  have he := e.isLt
  have hsub : (e - 1#32).toNat = (4294967296 - 1 + e.toNat) % 4294967296 := by
    rw [BitVec.toNat_sub]; rfl
  rw [BitVec.toInt_eq_toNat_cond] at h ⊢
  rw [hsub]
  split at h <;> split <;> omega

/-- For a relation id that is at least 1 (signed), the clipped row is the id less one, read as a signed number
    and cut off at 15: what a clamping row gather of the 16-row table at `e − 1` reads. -/
theorem relRow_of_pos (e : BitVec 32) (h : (1#32).sle e = true) :
    (relRow e).val = min (IntOp.subi e 1#32).toInt.toNat 15 := by
  show (relWord e).toNat = _
  unfold relWord IntOp.minsi IntOp.maxsi IntOp.subi
  obtain ⟨hx, hlt⟩ := pred_of_pos e h
  generalize e - 1#32 = x at hx hlt ⊢
  have h0 : (0#32).toInt = 0 := by decide
  have h15 : (15#32).toInt = 15 := by decide
  -- the lower clip does nothing: the id less one is not negative
  have h1 : ¬ (x.slt 0#32 = true) := by
    rw [BitVec.slt_iff_toInt_lt]; omega
  rw [if_neg h1]
  by_cases h2 : (15#32).slt x = true
  · rw [if_pos h2]
    rw [BitVec.slt_iff_toInt_lt] at h2
    show 15 = _
    omega
  · rw [if_neg h2]
    rw [BitVec.slt_iff_toInt_lt] at h2
    omega

/-- For such an id, `e − 1` is not negative, so counting a negative index from the table's end changes nothing. -/
theorem not_neg_of_pos (e : BitVec 32) (h : (1#32).sle e = true) : (IntOp.subi e 1#32).slt 0#32 = false := by
  unfold IntOp.subi
  obtain ⟨hx, hlt⟩ := pred_of_pos e h
  have h0 : (0#32).toInt = 0 := by decide
  rw [BitVec.slt_eq_decide, decide_eq_false_iff_not]
  omega

/-- A row with one non-zero entry `a` at position `k`, multiplied into a column: the column's entry at `k`, scaled. -/
theorem onehot_sum (a : EReal) (k : Fin 16) (w : Fin 16 → EReal) :
    (∑ r : Fin 16, (if k = r then a else 0) * w r) = a * w k := by
  -- every term but the k-th is a product with 0
  rw [Fintype.sum_eq_single k]
  · rw [if_pos rfl]
  · intro r hr
    rw [if_neg (fun h => hr h.symm), zero_mul]

/-- THE KERNEL'S EDGE MESSAGES: edge p's gathered row `T[p, ·]`, times the edge's mask, times the weight-table row
    the edge's relation id selects. -/
def msgK (mask : FVec Ideal ⟨2, ![3200000, 1]⟩ .f32) (rel : IVec ⟨2, ![3200000, 1]⟩ 32) (wt : FVec Ideal ⟨2, ![16, 64]⟩ .f32)
    (T : FVec Ideal ⟨2, ![3200000, 64]⟩ .f32) : FVec Ideal ⟨2, ![3200000, 64]⟩ .f32 :=
  fun j => T j * (mask (ix2 (⟨(j 0).val, idx2_lt0 j⟩ : Fin 3200000) (0 : Fin 1))
    * wt (ix2 (relRow (rel (ix2 (⟨(j 0).val, idx2_lt0 j⟩ : Fin 3200000) (0 : Fin 1)))) (⟨(j 1).val, idx2_lt1 j⟩ : Fin 64)))

theorem msgK_apply (mask : FVec Ideal ⟨2, ![3200000, 1]⟩ .f32) (rel : IVec ⟨2, ![3200000, 1]⟩ 32) (wt : FVec Ideal ⟨2, ![16, 64]⟩ .f32)
    (T : FVec Ideal ⟨2, ![3200000, 64]⟩ .f32) (p : Fin 3200000) (q : Fin 64) :
    msgK mask rel wt T (ix2 p q) = T (ix2 p q) * (mask (ix2 p (0 : Fin 1)) * wt (ix2 (relRow (rel (ix2 p (0 : Fin 1)))) q)) := rfl

end Cert.Msg

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.Region0.lean ====
/-
  Region 0: the array of edge messages the first kernel leaves.

  The kernel runs over a grid of 640 points. At point t it holds rows 5000 t … 5000 t + 4999 of the gathered rows T, of the
  mask column and of the relation-id column, and the whole 16-row weight table W, and it writes the same rows of the output:
      out[p, q] = T[p, q] · (onehot[p, ·] · W)[q],   onehot[p, r] = (mask[p] if r = clip(rel[p] − 1, 0, 15) else 0).
  First the body's arithmetic at one entry: the comparison of the clipped word with the column number r picks the one column
  r = row(rel[p]); the product of that one-hot row with the table is a sum over r with a single non-zero term, mask[p] · W[row, q].
  Then the region: each window's block at point t is the stated rows of its array (the block's coordinate on an axis is the
  block index times the block size plus the coordinate inside the block), so what point t writes back is block t of the
  message array; the 640 blocks tile the 3,200,000 rows (row r lies in block r / 5000), so the array ends holding the messages.
-/
import proofs.«412847_j996432412685_3_alg».proof.Proof.Gen.KernelIdeal.Frame
import proofs.«412847_j996432412685_3_alg».proof.Proof.Msg
import proofs.«412847_j996432412685_3_alg».proof.Proof.LibPlainDot
import proofs.«412847_j996432412685_3_alg».proof.Proof.LibColumn
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The iota along axis 1 reads, at (p, r), the number r as a 32-bit word. -/
theorem iota_apply (p : Fin 5000) (r : Fin 16) :
    iota .tc S5000x16 32 [1] iota_S5000x16_d1_w32 (ix2 p r) = BitVec.ofNat 32 r.val := by
  rw [iota_single_apply]

/-- The clipped column reads, at row p, the clipped word of that row's relation id. -/
theorem clip_apply (x2 : Vec Ideal S5000x1 .i32) (p : Fin 5000) :
    minsi (broadcast S5000x1 15#32) (maxsi (broadcast S5000x1 0#32) (subi x2 (broadcast S5000x1 1#32))) (ix2 p (0 : Fin 1))
      = Cert.Msg.relWord (x2 (ix2 p (0 : Fin 1))) := rfl

/-- The comparison's bit at (p, r): whether the clipped word of row p is the number r. -/
theorem cmp_apply (x2 : Vec Ideal S5000x1 .i32) (p : Fin 5000) (r : Fin 16) :
    cmpi .eq (broadcastTo S5000x16 (minsi (broadcast S5000x1 15#32) (maxsi (broadcast S5000x1 0#32) (subi x2 (broadcast S5000x1 1#32)))) broadcasts_S5000x1_S5000x16)
          (iota .tc S5000x16 32 [1] iota_S5000x16_d1_w32) (ix2 p r)
      = BitVec.ofBool (Cert.Msg.relWord (x2 (ix2 p (0 : Fin 1))) == BitVec.ofNat 32 r.val) := by
  show IntOp.cmpi .eq (broadcastTo S5000x16 _ broadcasts_S5000x1_S5000x16 (ix2 p r)) (iota .tc S5000x16 32 [1] iota_S5000x16_d1_w32 (ix2 p r)) = _
  rw [Idealize.ShloMosaic.Column.broadcastTo_a1_ab_apply, iota_apply, clip_apply]
  rfl

set_option maxHeartbeats 400000 in
/-- The one-hot row at (p, r): the mask of row p where r is the row's selected table row, zero elsewhere. -/
theorem sel_apply (x1 : Vec Ideal S5000x1 .f32) (x2 : Vec Ideal S5000x1 .i32) (p : Fin 5000) (r : Fin 16) :
    (select (cmpi .eq (broadcastTo S5000x16 (minsi (broadcast S5000x1 15#32) (maxsi (broadcast S5000x1 0#32) (subi x2 (broadcast S5000x1 1#32)))) broadcasts_S5000x1_S5000x16)
          (iota .tc S5000x16 32 [1] iota_S5000x16_d1_w32))
        (broadcastTo S5000x16 x1 broadcasts_S5000x1_S5000x16)
        (broadcastTo S5000x16 (broadcast S5000x1 (Scalar.ofBits (F := Ideal) .f32 0x00000000#32)) broadcasts_S5000x1_S5000x16) : FVec Ideal S5000x16 .f32) (ix2 p r)
      = if Cert.Msg.relRow (x2 (ix2 p (0 : Fin 1))) = r then x1 (ix2 p (0 : Fin 1)) else 0 := by
  rw [select_apply, cmp_apply, Idealize.ShloMosaic.Column.broadcastTo_a1_ab_apply, Idealize.ShloMosaic.Column.broadcastTo_a1_ab_apply, broadcast_apply]
  by_cases h : Cert.Msg.relRow (x2 (ix2 p (0 : Fin 1))) = r
  · rw [if_pos h, (beq_iff_eq).mpr ((Cert.Msg.relWord_eq_iff _ r).mpr h)]
    exact select_one _ _
  · rw [if_neg h, (beq_eq_false_iff_ne).mpr (fun e => h ((Cert.Msg.relWord_eq_iff _ r).mp e))]
    exact (select_zero _ _).trans Ideal.ofBits_zero_f32

set_option maxHeartbeats 400000 in
/-- THE BODY'S ARITHMETIC AT AN ENTRY: the gathered row's entry, times the row's mask, times the selected table row's entry. -/
theorem pay_apply (x0 : Vec Ideal S5000x64 .f32) (x1 : Vec Ideal S5000x1 .f32) (x2 : Vec Ideal S5000x1 .i32) (x3 : Vec Ideal S16x64 .f32) (p : Fin 5000) (q : Fin 64) :
    k0_pay1 x0 x1 x2 x3 (ix2 p q) = x0 (ix2 p q) * (x1 (ix2 p (0 : Fin 1)) * x3 (ix2 (Cert.Msg.relRow (x2 (ix2 p (0 : Fin 1)))) q)) := by
  unfold k0_pay1
  simp only [shapeCast_self]
  rw [mulf_apply]
  unfold Idealize.ShloMosaic.matmul
  rw [Idealize.ShloMosaic.PlainDot.matmul_zero_apply dot_S5000x16_S16x64_S5000x64_1_0_0_1_n_n rfl rfl rfl rfl rfl rfl (by decide) (by decide)]
  refine congrArg (x0 (ix2 p q) * ·) ?_
  refine Eq.trans ?_ (Cert.Msg.onehot_sum (x1 (ix2 p (0 : Fin 1))) (Cert.Msg.relRow (x2 (ix2 p (0 : Fin 1)))) (fun r => x3 (ix2 r q)))
  refine Finset.sum_congr rfl fun k _ => ?_
  rw [sel_apply]

/-! ## The region: what each grid point writes back, and the array after the last -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: windows 0, 1, 2 and 4 sit at block (t, 0), window 3 at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row a of block t is row 5000 t + a of the array, which has 640 · 5000 rows. -/
theorem row_lt0 (t : Fin cfg0.N) (a : Fin 5000) : t.val * 5000 + a.val < 3200000 := by
  have ht : t.val < 640 := lt_of_lt_of_eq t.isLt N_0
  have ha := a.isLt
  omega

set_option maxHeartbeats 400000 in
/-- Window 0's block at point t: rows 5000 t … 5000 t + 4999 of the gathered rows. -/
theorem blk0_0 (c : Dev nD) (t : Fin cfg0.N) (a : Fin 5000) (b : Fin 64) :
    (iblk0 V c 0 t : Vec Ideal S5000x64 .f32) (ix2 a b)
      = (V c main_v8 : FVec Ideal S3200000x64 .f32) (ix2 (⟨t.val * 5000 + a.val, row_lt0 t a⟩ : Fin 3200000) b) := by
  obtain ⟨e0, e1, -⟩ := idx_facts0 t
  unfold iblk0
  rw [View.read_apply]
  show V c main_v8 _ = V c main_v8 _
  congr 1
  funext ax
  apply Fin.ext
  match ax with
  | ⟨0, _⟩ => show win0_0.index t (0 : Fin 2) * 5000 + 1 * a.val = t.val * 5000 + a.val; rw [e0]; omega
  | ⟨1, _⟩ => show win0_0.index t (1 : Fin 2) * 64 + 1 * b.val = b.val; rw [e1]; omega

set_option maxHeartbeats 400000 in
/-- Window 1's block at point t: the same rows of the mask column. -/
theorem blk0_1 (c : Dev nD) (t : Fin cfg0.N) (a : Fin 5000) (b : Fin 1) :
    (iblk0 V c 1 t : Vec Ideal S5000x1 .f32) (ix2 a b)
      = (V c main_v0 : FVec Ideal S3200000x1 .f32) (ix2 (⟨t.val * 5000 + a.val, row_lt0 t a⟩ : Fin 3200000) b) := by
  obtain ⟨-, -, e0, e1, -⟩ := idx_facts0 t
  unfold iblk0
  rw [View.read_apply]
  show V c main_v0 _ = V c main_v0 _
  congr 1
  funext ax
  apply Fin.ext
  match ax with
  | ⟨0, _⟩ => show win0_1.index t (0 : Fin 2) * 5000 + 1 * a.val = t.val * 5000 + a.val; rw [e0]; omega
  | ⟨1, _⟩ => show win0_1.index t (1 : Fin 2) * 1 + 1 * b.val = b.val; rw [e1]; omega

set_option maxHeartbeats 400000 in
/-- Window 2's block at point t: the same rows of the relation-id column. -/
theorem blk0_2 (c : Dev nD) (t : Fin cfg0.N) (a : Fin 5000) (b : Fin 1) :
    (iblk0 V c 2 t : Vec Ideal S5000x1 .i32) (ix2 a b)
      = (V c main_v1 : IVec S3200000x1 32) (ix2 (⟨t.val * 5000 + a.val, row_lt0 t a⟩ : Fin 3200000) b) := by
  obtain ⟨-, -, -, -, e0, e1, -⟩ := idx_facts0 t
  unfold iblk0
  rw [View.read_apply]
  show V c main_v1 _ = V c main_v1 _
  congr 1
  funext ax
  apply Fin.ext
  match ax with
  | ⟨0, _⟩ => show win0_2.index t (0 : Fin 2) * 5000 + 1 * a.val = t.val * 5000 + a.val; rw [e0]; omega
  | ⟨1, _⟩ => show win0_2.index t (1 : Fin 2) * 1 + 1 * b.val = b.val; rw [e1]; omega

set_option maxHeartbeats 400000 in
/-- Window 3's block at every point: the whole weight table. -/
theorem blk0_3 (c : Dev nD) (t : Fin cfg0.N) (a : Fin 16) (b : Fin 64) :
    (iblk0 V c 3 t : Vec Ideal S16x64 .f32) (ix2 a b) = (V c main_arg2 : FVec Ideal S16x64 .f32) (ix2 a b) := by
  obtain ⟨-, -, -, -, -, -, e0, e1, -⟩ := idx_facts0 t
  unfold iblk0
  rw [View.read_apply]
  show V c main_arg2 _ = V c main_arg2 _
  congr 1
  funext ax
  apply Fin.ext
  match ax with
  | ⟨0, _⟩ => show win0_3.index t (0 : Fin 2) * 16 + 1 * a.val = a.val; rw [e0]; omega
  | ⟨1, _⟩ => show win0_3.index t (1 : Fin 2) * 64 + 1 * b.val = b.val; rw [e1]; omega

set_option maxHeartbeats 400000 in
/-- WHAT POINT t WRITES BACK is block t of the edge messages of the arrays as the region finds them. -/
theorem flushed_eq0 (c : Dev nD) (t : Fin cfg0.N) :
    (dat0 (F := Ideal) V c).flushed 4 t
      = ((cfg0.win 4).blk t).view.read (Elt Ideal) (Cert.Msg.msgK (V c main_v0) (V c main_v1) (V c main_arg2) (V c main_v8)) := by
  show (cfg0.win 4).cut (grid0.coords t) ((dat0 V c).after 4 t) = _
  rw [after0_4]
  unfold out0_4
  rw [View.canon_unit_zero hz]
  simp only [View.ld_unit_zero (S := S5000x64) hz, View.ld_unit_zero (S := S5000x1) hz, View.ld_unit_zero (S := S16x64) hz]
  obtain ⟨-, -, -, -, -, -, -, -, e0, e1⟩ := idx_facts0 t
  funext j
  have hj0 : (j 0).val < 5000 := (j 0).isLt
  have hj1 : (j 1).val < 64 := (j 1).isLt
  show k0_pay1 (iblk0 V c 0 t) (iblk0 V c 1 t) (iblk0 V c 2 t) (iblk0 V c 3 t) ((cfg0.win 4).xinj (grid0.coords t) j)
    = Cert.Msg.msgK (V c main_v0) (V c main_v1) (V c main_arg2) (V c main_v8) (((cfg0.win 4).blk t).view.emb j)
  have hl : (cfg0.win 4).xinj (grid0.coords t) j = ix2 (⟨(j 0).val, hj0⟩ : Fin 5000) (⟨(j 1).val, hj1⟩ : Fin 64) :=
    funext fun ax => match ax with | ⟨0, _⟩ => rfl | ⟨1, _⟩ => rfl
  have hr : ((cfg0.win 4).blk t).view.emb j
      = ix2 (⟨t.val * 5000 + (j 0).val, row_lt0 t ⟨(j 0).val, hj0⟩⟩ : Fin 3200000) (⟨(j 1).val, hj1⟩ : Fin 64) := by
    funext ax
    apply Fin.ext
    match ax with
    | ⟨0, _⟩ => show win0_4.index t (0 : Fin 2) * 5000 + 1 * (j 0).val = t.val * 5000 + (j 0).val; rw [e0]; omega
    | ⟨1, _⟩ => show win0_4.index t (1 : Fin 2) * 64 + 1 * (j 1).val = (j 1).val; rw [e1]; omega
  refine ((congrArg (k0_pay1 (iblk0 V c 0 t) (iblk0 V c 1 t) (iblk0 V c 2 t) (iblk0 V c 3 t)) hl).trans ?_).trans
    (congrArg (Cert.Msg.msgK (V c main_v0) (V c main_v1) (V c main_arg2) (V c main_v8)) hr).symm
  rw [pay_apply, Cert.Msg.msgK_apply, blk0_0 V c t, blk0_1 V c t, blk0_2 V c t, blk0_3 V c t]

/-- An index of the array is in point t's block iff each coordinate is in the block's range on its axis. -/
theorem mem_blk0 (t : Fin cfg0.N) (i : S3200000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v9).slice (win0_4.rect t)).set ↔ _
  rw [View.set_slice_whole, Rect.mem_set_unit]
  exact Iff.rfl

/-- Every row r of the array is in the block of the point r / 5000, which writes back. -/
theorem cover0 (i : S3200000x64.Idx) :
    ∃ t : Fin cfg0.N, (cfg0.win 4).flush t = true ∧ i ∈ ((cfg0.win 4).blk t).view.set := by
  have hi0 : (i 0).val < 3200000 := (i 0).isLt
  have hi1 : (i 1).val < 64 := (i 1).isLt
  have hN : cfg0.N = 640 := N_0
  refine ⟨⟨(i 0).val / 5000, by rw [hN]; omega⟩, flush0_4 _, ?_⟩
  rw [mem_blk0]
  obtain ⟨-, -, -, -, -, -, -, -, e0, e1⟩ := idx_facts0 ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 64 ≤ (i 1).val ∧ (i 1).val < win0_4.index _ (1 : Fin 2) * 64 + 64
    rw [e1]; omega

/-- THE OUTPUT ARRAY AFTER THE REGION: the edge messages of the arrays as the region finds them. -/
theorem arr_eq (c : Dev nD) :
    ((dat0 (F := Ideal) V c).arrAt 4 cfg0.N : S3200000x64.Idx → EReal)
      = Cert.Msg.msgK (V c main_v0) (V c main_v1) (V c main_arg2) (V c main_v8) :=
  (dat0 (F := Ideal) V c).arrAt_eq_of_cover 4 (Cert.Msg.msgK (V c main_v0) (V c main_v1) (V c main_arg2) (V c main_v8))
    (fun t _ => flushed_eq0 V c t) cover0

end Cert.KernelIdeal.Region0

end
-- ==== Proof.Region1.lean ====
/-
  Region 1: the array of edge messages the second kernel leaves.

  The kernel runs over a grid of 640 points. At point t it holds rows 5000 t … 5000 t + 4999 of the gathered rows T, of the
  mask column and of the relation-id column, and the whole 16-row weight table W, and it writes the same rows of the output:
      out[p, q] = T[p, q] · (onehot[p, ·] · W)[q],   onehot[p, r] = (mask[p] if r = clip(rel[p] − 1, 0, 15) else 0).
  First the body's arithmetic at one entry: the comparison of the clipped word with the column number r picks the one column
  r = row(rel[p]); the product of that one-hot row with the table is a sum over r with a single non-zero term, mask[p] · W[row, q].
  Then the region: each window's block at point t is the stated rows of its array (the block's coordinate on an axis is the
  block index times the block size plus the coordinate inside the block), so what point t writes back is block t of the
  message array; the 640 blocks tile the 3,200,000 rows (row r lies in block r / 5000), so the array ends holding the messages.
-/
import proofs.«412847_j996432412685_3_alg».proof.Proof.Gen.KernelIdeal.Frame
import proofs.«412847_j996432412685_3_alg».proof.Proof.Msg
import proofs.«412847_j996432412685_3_alg».proof.Proof.LibPlainDot
import proofs.«412847_j996432412685_3_alg».proof.Proof.LibColumn
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The iota along axis 1 reads, at (p, r), the number r as a 32-bit word. -/
theorem iota_apply (p : Fin 5000) (r : Fin 16) :
    iota .tc S5000x16 32 [1] iota_S5000x16_d1_w32 (ix2 p r) = BitVec.ofNat 32 r.val := by
  rw [iota_single_apply]

/-- The clipped column reads, at row p, the clipped word of that row's relation id. -/
theorem clip_apply (x2 : Vec Ideal S5000x1 .i32) (p : Fin 5000) :
    minsi (broadcast S5000x1 15#32) (maxsi (broadcast S5000x1 0#32) (subi x2 (broadcast S5000x1 1#32))) (ix2 p (0 : Fin 1))
      = Cert.Msg.relWord (x2 (ix2 p (0 : Fin 1))) := rfl

/-- The comparison's bit at (p, r): whether the clipped word of row p is the number r. -/
theorem cmp_apply (x2 : Vec Ideal S5000x1 .i32) (p : Fin 5000) (r : Fin 16) :
    cmpi .eq (broadcastTo S5000x16 (minsi (broadcast S5000x1 15#32) (maxsi (broadcast S5000x1 0#32) (subi x2 (broadcast S5000x1 1#32)))) broadcasts_S5000x1_S5000x16)
          (iota .tc S5000x16 32 [1] iota_S5000x16_d1_w32) (ix2 p r)
      = BitVec.ofBool (Cert.Msg.relWord (x2 (ix2 p (0 : Fin 1))) == BitVec.ofNat 32 r.val) := by
  show IntOp.cmpi .eq (broadcastTo S5000x16 _ broadcasts_S5000x1_S5000x16 (ix2 p r)) (iota .tc S5000x16 32 [1] iota_S5000x16_d1_w32 (ix2 p r)) = _
  rw [Idealize.ShloMosaic.Column.broadcastTo_a1_ab_apply, iota_apply, clip_apply]
  rfl

set_option maxHeartbeats 400000 in
/-- The one-hot row at (p, r): the mask of row p where r is the row's selected table row, zero elsewhere. -/
theorem sel_apply (x1 : Vec Ideal S5000x1 .f32) (x2 : Vec Ideal S5000x1 .i32) (p : Fin 5000) (r : Fin 16) :
    (select (cmpi .eq (broadcastTo S5000x16 (minsi (broadcast S5000x1 15#32) (maxsi (broadcast S5000x1 0#32) (subi x2 (broadcast S5000x1 1#32)))) broadcasts_S5000x1_S5000x16)
          (iota .tc S5000x16 32 [1] iota_S5000x16_d1_w32))
        (broadcastTo S5000x16 x1 broadcasts_S5000x1_S5000x16)
        (broadcastTo S5000x16 (broadcast S5000x1 (Scalar.ofBits (F := Ideal) .f32 0x00000000#32)) broadcasts_S5000x1_S5000x16) : FVec Ideal S5000x16 .f32) (ix2 p r)
      = if Cert.Msg.relRow (x2 (ix2 p (0 : Fin 1))) = r then x1 (ix2 p (0 : Fin 1)) else 0 := by
  rw [select_apply, cmp_apply, Idealize.ShloMosaic.Column.broadcastTo_a1_ab_apply, Idealize.ShloMosaic.Column.broadcastTo_a1_ab_apply, broadcast_apply]
  by_cases h : Cert.Msg.relRow (x2 (ix2 p (0 : Fin 1))) = r
  · rw [if_pos h, (beq_iff_eq).mpr ((Cert.Msg.relWord_eq_iff _ r).mpr h)]
    exact select_one _ _
  · rw [if_neg h, (beq_eq_false_iff_ne).mpr (fun e => h ((Cert.Msg.relWord_eq_iff _ r).mp e))]
    exact (select_zero _ _).trans Ideal.ofBits_zero_f32

set_option maxHeartbeats 400000 in
/-- THE BODY'S ARITHMETIC AT AN ENTRY: the gathered row's entry, times the row's mask, times the selected table row's entry. -/
theorem pay_apply (x0 : Vec Ideal S5000x64 .f32) (x1 : Vec Ideal S5000x1 .f32) (x2 : Vec Ideal S5000x1 .i32) (x3 : Vec Ideal S16x64 .f32) (p : Fin 5000) (q : Fin 64) :
    k1_pay1 x0 x1 x2 x3 (ix2 p q) = x0 (ix2 p q) * (x1 (ix2 p (0 : Fin 1)) * x3 (ix2 (Cert.Msg.relRow (x2 (ix2 p (0 : Fin 1)))) q)) := by
  unfold k1_pay1
  simp only [shapeCast_self]
  rw [mulf_apply]
  unfold Idealize.ShloMosaic.matmul
  rw [Idealize.ShloMosaic.PlainDot.matmul_zero_apply dot_S5000x16_S16x64_S5000x64_1_0_0_1_n_n rfl rfl rfl rfl rfl rfl (by decide) (by decide)]
  refine congrArg (x0 (ix2 p q) * ·) ?_
  refine Eq.trans ?_ (Cert.Msg.onehot_sum (x1 (ix2 p (0 : Fin 1))) (Cert.Msg.relRow (x2 (ix2 p (0 : Fin 1)))) (fun r => x3 (ix2 r q)))
  refine Finset.sum_congr rfl fun k _ => ?_
  rw [sel_apply]

/-! ## The region: what each grid point writes back, and the array after the last -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: windows 0, 1, 2 and 4 sit at block (t, 0), window 3 at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row a of block t is row 5000 t + a of the array, which has 640 · 5000 rows. -/
theorem row_lt1 (t : Fin cfg1.N) (a : Fin 5000) : t.val * 5000 + a.val < 3200000 := by
  have ht : t.val < 640 := lt_of_lt_of_eq t.isLt N_1
  have ha := a.isLt
  omega

set_option maxHeartbeats 400000 in
/-- Window 0's block at point t: rows 5000 t … 5000 t + 4999 of the gathered rows. -/
theorem blk1_0 (c : Dev nD) (t : Fin cfg1.N) (a : Fin 5000) (b : Fin 64) :
    (iblk1 V c 0 t : Vec Ideal S5000x64 .f32) (ix2 a b)
      = (V c main_v50 : FVec Ideal S3200000x64 .f32) (ix2 (⟨t.val * 5000 + a.val, row_lt1 t a⟩ : Fin 3200000) b) := by
  obtain ⟨e0, e1, -⟩ := idx_facts1 t
  unfold iblk1
  rw [View.read_apply]
  show V c main_v50 _ = V c main_v50 _
  congr 1
  funext ax
  apply Fin.ext
  match ax with
  | ⟨0, _⟩ => show win1_0.index t (0 : Fin 2) * 5000 + 1 * a.val = t.val * 5000 + a.val; rw [e0]; omega
  | ⟨1, _⟩ => show win1_0.index t (1 : Fin 2) * 64 + 1 * b.val = b.val; rw [e1]; omega

set_option maxHeartbeats 400000 in
/-- Window 1's block at point t: the same rows of the mask column. -/
theorem blk1_1 (c : Dev nD) (t : Fin cfg1.N) (a : Fin 5000) (b : Fin 1) :
    (iblk1 V c 1 t : Vec Ideal S5000x1 .f32) (ix2 a b)
      = (V c main_v0 : FVec Ideal S3200000x1 .f32) (ix2 (⟨t.val * 5000 + a.val, row_lt1 t a⟩ : Fin 3200000) b) := by
  obtain ⟨-, -, e0, e1, -⟩ := idx_facts1 t
  unfold iblk1
  rw [View.read_apply]
  show V c main_v0 _ = V c main_v0 _
  congr 1
  funext ax
  apply Fin.ext
  match ax with
  | ⟨0, _⟩ => show win1_1.index t (0 : Fin 2) * 5000 + 1 * a.val = t.val * 5000 + a.val; rw [e0]; omega
  | ⟨1, _⟩ => show win1_1.index t (1 : Fin 2) * 1 + 1 * b.val = b.val; rw [e1]; omega

set_option maxHeartbeats 400000 in
/-- Window 2's block at point t: the same rows of the relation-id column. -/
theorem blk1_2 (c : Dev nD) (t : Fin cfg1.N) (a : Fin 5000) (b : Fin 1) :
    (iblk1 V c 2 t : Vec Ideal S5000x1 .i32) (ix2 a b)
      = (V c main_v1 : IVec S3200000x1 32) (ix2 (⟨t.val * 5000 + a.val, row_lt1 t a⟩ : Fin 3200000) b) := by
  obtain ⟨-, -, -, -, e0, e1, -⟩ := idx_facts1 t
  unfold iblk1
  rw [View.read_apply]
  show V c main_v1 _ = V c main_v1 _
  congr 1
  funext ax
  apply Fin.ext
  match ax with
  | ⟨0, _⟩ => show win1_2.index t (0 : Fin 2) * 5000 + 1 * a.val = t.val * 5000 + a.val; rw [e0]; omega
  | ⟨1, _⟩ => show win1_2.index t (1 : Fin 2) * 1 + 1 * b.val = b.val; rw [e1]; omega

set_option maxHeartbeats 400000 in
/-- Window 3's block at every point: the whole weight table. -/
theorem blk1_3 (c : Dev nD) (t : Fin cfg1.N) (a : Fin 16) (b : Fin 64) :
    (iblk1 V c 3 t : Vec Ideal S16x64 .f32) (ix2 a b) = (V c main_arg2 : FVec Ideal S16x64 .f32) (ix2 a b) := by
  obtain ⟨-, -, -, -, -, -, e0, e1, -⟩ := idx_facts1 t
  unfold iblk1
  rw [View.read_apply]
  show V c main_arg2 _ = V c main_arg2 _
  congr 1
  funext ax
  apply Fin.ext
  match ax with
  | ⟨0, _⟩ => show win1_3.index t (0 : Fin 2) * 16 + 1 * a.val = a.val; rw [e0]; omega
  | ⟨1, _⟩ => show win1_3.index t (1 : Fin 2) * 64 + 1 * b.val = b.val; rw [e1]; omega

set_option maxHeartbeats 400000 in
/-- WHAT POINT t WRITES BACK is block t of the edge messages of the arrays as the region finds them. -/
theorem flushed_eq1 (c : Dev nD) (t : Fin cfg1.N) :
    (dat1 (F := Ideal) V c).flushed 4 t
      = ((cfg1.win 4).blk t).view.read (Elt Ideal) (Cert.Msg.msgK (V c main_v0) (V c main_v1) (V c main_arg2) (V c main_v50)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S16x64) hz]
  obtain ⟨-, -, -, -, -, -, -, -, e0, e1⟩ := idx_facts1 t
  funext j
  have hj0 : (j 0).val < 5000 := (j 0).isLt
  have hj1 : (j 1).val < 64 := (j 1).isLt
  show k1_pay1 (iblk1 V c 0 t) (iblk1 V c 1 t) (iblk1 V c 2 t) (iblk1 V c 3 t) ((cfg1.win 4).xinj (grid1.coords t) j)
    = Cert.Msg.msgK (V c main_v0) (V c main_v1) (V c main_arg2) (V c main_v50) (((cfg1.win 4).blk t).view.emb j)
  have hl : (cfg1.win 4).xinj (grid1.coords t) j = ix2 (⟨(j 0).val, hj0⟩ : Fin 5000) (⟨(j 1).val, hj1⟩ : Fin 64) :=
    funext fun ax => match ax with | ⟨0, _⟩ => rfl | ⟨1, _⟩ => rfl
  have hr : ((cfg1.win 4).blk t).view.emb j
      = ix2 (⟨t.val * 5000 + (j 0).val, row_lt1 t ⟨(j 0).val, hj0⟩⟩ : Fin 3200000) (⟨(j 1).val, hj1⟩ : Fin 64) := by
    funext ax
    apply Fin.ext
    match ax with
    | ⟨0, _⟩ => show win1_4.index t (0 : Fin 2) * 5000 + 1 * (j 0).val = t.val * 5000 + (j 0).val; rw [e0]; omega
    | ⟨1, _⟩ => show win1_4.index t (1 : Fin 2) * 64 + 1 * (j 1).val = (j 1).val; rw [e1]; omega
  refine ((congrArg (k1_pay1 (iblk1 V c 0 t) (iblk1 V c 1 t) (iblk1 V c 2 t) (iblk1 V c 3 t)) hl).trans ?_).trans
    (congrArg (Cert.Msg.msgK (V c main_v0) (V c main_v1) (V c main_arg2) (V c main_v50)) hr).symm
  rw [pay_apply, Cert.Msg.msgK_apply, blk1_0 V c t, blk1_1 V c t, blk1_2 V c t, blk1_3 V c t]

/-- An index of the array is in point t's block iff each coordinate is in the block's range on its axis. -/
theorem mem_blk1 (t : Fin cfg1.N) (i : S3200000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v51).slice (win1_4.rect t)).set ↔ _
  rw [View.set_slice_whole, Rect.mem_set_unit]
  exact Iff.rfl

/-- Every row r of the array is in the block of the point r / 5000, which writes back. -/
theorem cover1 (i : S3200000x64.Idx) :
    ∃ t : Fin cfg1.N, (cfg1.win 4).flush t = true ∧ i ∈ ((cfg1.win 4).blk t).view.set := by
  have hi0 : (i 0).val < 3200000 := (i 0).isLt
  have hi1 : (i 1).val < 64 := (i 1).isLt
  have hN : cfg1.N = 640 := N_1
  refine ⟨⟨(i 0).val / 5000, by rw [hN]; omega⟩, flush1_4 _, ?_⟩
  rw [mem_blk1]
  obtain ⟨-, -, -, -, -, -, -, -, e0, e1⟩ := idx_facts1 ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e1]; omega

/-- THE OUTPUT ARRAY AFTER THE REGION: the edge messages of the arrays as the region finds them. -/
theorem arr_eq (c : Dev nD) :
    ((dat1 (F := Ideal) V c).arrAt 4 cfg1.N : S3200000x64.Idx → EReal)
      = Cert.Msg.msgK (V c main_v0) (V c main_v1) (V c main_arg2) (V c main_v50) :=
  (dat1 (F := Ideal) V c).arrAt_eq_of_cover 4 (Cert.Msg.msgK (V c main_v0) (V c main_v1) (V c main_arg2) (V c main_v50))
    (fun t _ => flushed_eq1 V c t) cover1

end Cert.KernelIdeal.Region1

end
-- ==== Proof.Through.lean ====
/-
  The kernel program's two results as the shared composition over the kernel's message function.

  The buffer contents at the five segment boundaries of the kernel's program are a fold from the launch memory:
  a stretch of array operations applies its operations, a kernel call replaces its output array by what the grid's
  write-backs leave and keeps every other buffer. Walking that fold with the stretches' lemmas and the two kernel
  calls' array theorems, every buffer the results depend on is named in terms of the launch memory, and the two
  result buffers come out as  outE msg  and  outU msg  of the arguments, `msg` being the kernel's edge messages
  over the mask column, the relation-id column and the weight table.
-/
import proofs.«412847_j996432412685_3_alg».proof.Proof.Gen.KernelIdeal.Frame
import proofs.«412847_j996432412685_3_alg».proof.Proof.Stretch
import proofs.«412847_j996432412685_3_alg».proof.Proof.Msg
import proofs.«412847_j996432412685_3_alg».proof.Proof.Region0
import proofs.«412847_j996432412685_3_alg».proof.Proof.Region1

set_option maxRecDepth 16384

noncomputable section

namespace Cert.KernelIdeal.Through

open Idealize.ShloMosaic Idealize.ShloMosaic.TcCoe Idealize.ShloMosaic.StableHlo Idealize.SL.Sem
open Cert.KernelIdeal Cert.KernelIdeal.Gen Cert.KernelIdeal.Spec Cert.KernelIdeal.Stretch

variable (m : (ℓ : Loc nD τ sig) → Buf (Elt Ideal) ℓ) (ρ : Dev nD → PrngReg)

/-- The kernel's edge messages over the launch memory's mask, relation ids and weight table. -/
def msg (c : Dev nD) : FVec Ideal S3200000x64 .f32 → FVec Ideal S3200000x64 .f32 :=
  Cert.Msg.msgK (shapeCast S3200000x1 (m ((c : Thread nD τ).loc main_arg3)) Facts₀.shapeCasts_S3200000_S3200000x1)
    (shapeCast S3200000x1 (m ((c : Thread nD τ).loc main_arg7)) Facts₀.shapeCasts_S3200000_S3200000x1)
    (m ((c : Thread nD τ).loc main_arg2))

/-! ## Boundary 1: after the first stretch -/

theorem W1_arg (c : Dev nD) (b : Ref sig .tc) (hb : after (hostOps0 (F := Ideal)) (W0 m ρ c) (Proc.devRef .tc b) = W0 m ρ c (Proc.devRef .tc b)) :
    W1 m ρ c (Proc.devRef .tc b) = m ((c : Thread nD τ).loc b) := hb.trans rfl

theorem W1_tail (c : Dev nD) : W1 m ρ c (Proc.devRef .tc main_v8)
    = rowsE (F := Ideal) (m ((c : Thread nD τ).loc main_arg1)) (m ((c : Thread nD τ).loc main_arg6)) := first_tail (W0 m ρ c)
theorem W1_mask (c : Dev nD) : W1 m ρ c (Proc.devRef .tc main_v0)
    = shapeCast S3200000x1 (m ((c : Thread nD τ).loc main_arg3)) Facts₀.shapeCasts_S3200000_S3200000x1 := first_mask (W0 m ρ c)
theorem W1_rel (c : Dev nD) : W1 m ρ c (Proc.devRef .tc main_v1)
    = shapeCast S3200000x1 (m ((c : Thread nD τ).loc main_arg7)) Facts₀.shapeCasts_S3200000_S3200000x1 := first_rel (W0 m ρ c)

/-! ## Boundary 2: after the first kernel call -/

theorem W2_msg (c : Dev nD) : W2 m ρ c (Proc.devRef .tc main_v9)
    = msg m c (rowsE (F := Ideal) (m ((c : Thread nD τ).loc main_arg1)) (m ((c : Thread nD τ).loc main_arg6))) := by
  refine (W2_arr m ρ c 4).trans ?_
  rw [Cert.KernelIdeal.Region0.arr_eq (V1 m ρ) c]
  show Cert.Msg.msgK (W1 m ρ c (Proc.devRef .tc main_v0)) (W1 m ρ c (Proc.devRef .tc main_v1)) (W1 m ρ c (Proc.devRef .tc main_arg2)) (W1 m ρ c (Proc.devRef .tc main_v8)) = _
  rw [W1_mask, W1_rel, W1_tail, W1_arg m ρ c main_arg2 (first_keep_arg2 _)]
  rfl

/-- A buffer neither kernel call's windows touch and the first stretch keeps: as launched, at boundary 2. -/
theorem W2_keep (c : Dev nD) (b : Ref sig .tc) (hne : ∀ w, Pipeline.arrRef spec0 w ≠ b)
    (hb : after (hostOps0 (F := Ideal)) (W0 m ρ c) (Proc.devRef .tc b) = W0 m ρ c (Proc.devRef .tc b)) :
    W2 m ρ c (Proc.devRef .tc b) = m ((c : Thread nD τ).loc b) :=
  (W2_of_ne m ρ c b hne).trans (W1_arg m ρ c b hb)

/-- An array the first kernel call only reads is unchanged by it. -/
theorem W2_wt (c : Dev nD) : W2 m ρ c (Proc.devRef .tc main_arg2) = (m ((c : Thread nD τ).loc main_arg2)) :=
  ((W2_arr m ρ c 3).trans (((dat0 (V1 m ρ) c).arrAt_in 3 rfl _).trans (A_eq0 (V1 m ρ) c 3))).trans
    (W1_arg m ρ c main_arg2 (first_keep_arg2 _))
theorem W2_mask (c : Dev nD) : W2 m ρ c (Proc.devRef .tc main_v0)
    = shapeCast S3200000x1 (m ((c : Thread nD τ).loc main_arg3)) Facts₀.shapeCasts_S3200000_S3200000x1 :=
  ((W2_arr m ρ c 1).trans (((dat0 (V1 m ρ) c).arrAt_in 1 rfl _).trans (A_eq0 (V1 m ρ) c 1))).trans (W1_mask m ρ c)
theorem W2_rel (c : Dev nD) : W2 m ρ c (Proc.devRef .tc main_v1)
    = shapeCast S3200000x1 (m ((c : Thread nD τ).loc main_arg7)) Facts₀.shapeCasts_S3200000_S3200000x1 :=
  ((W2_arr m ρ c 2).trans (((dat0 (V1 m ρ) c).arrAt_in 2 rfl _).trans (A_eq0 (V1 m ρ) c 2))).trans (W1_rel m ρ c)

/-! ## Boundary 3: after the second stretch -/

/-- The first round's entity update. -/
theorem W3_ent (c : Dev nD) : W3 m ρ c (Proc.devRef .tc main_v33) = (stepE (msg m c) (m ((c : Thread nD τ).loc main_arg1)) (m ((c : Thread nD τ).loc main_arg5)) (m ((c : Thread nD τ).loc main_arg6))) := by
  refine (second_ent (W2 m ρ c)).trans ?_
  rw [W2_msg, W2_keep m ρ c main_arg5 (by decide) (first_keep_arg5 _)]
  rfl

theorem W3_sumE (c : Dev nD) : W3 m ρ c (Proc.devRef .tc main_v42) = addf (m ((c : Thread nD τ).loc main_arg1)) (stepE (msg m c) (m ((c : Thread nD τ).loc main_arg1)) (m ((c : Thread nD τ).loc main_arg5)) (m ((c : Thread nD τ).loc main_arg6))) := by
  refine (second_sumE (W2 m ρ c)).trans ?_
  rw [W2_msg, W2_keep m ρ c main_arg5 (by decide) (first_keep_arg5 _), W2_keep m ρ c main_arg1 (by decide) (first_keep_arg1 _)]
  rfl

theorem W3_sumU (c : Dev nD) : W3 m ρ c (Proc.devRef .tc main_v43)
    = addf (m ((c : Thread nD τ).loc main_arg0)) (stepU (F := Ideal) (m ((c : Thread nD τ).loc main_arg1)) (m ((c : Thread nD τ).loc main_arg4)) (m ((c : Thread nD τ).loc main_arg8)) (m ((c : Thread nD τ).loc main_arg9))) := by
  refine (second_sumU (W2 m ρ c)).trans ?_
  rw [W2_keep m ρ c main_arg0 (by decide) (first_keep_arg0 _), W2_keep m ρ c main_arg1 (by decide) (first_keep_arg1 _),
    W2_keep m ρ c main_arg4 (by decide) (first_keep_arg4 _), W2_keep m ρ c main_arg8 (by decide) (first_keep_arg8 _),
    W2_keep m ρ c main_arg9 (by decide) (first_keep_arg9 _)]

theorem W3_tail (c : Dev nD) : W3 m ρ c (Proc.devRef .tc main_v50) = rowsE (stepE (msg m c) (m ((c : Thread nD τ).loc main_arg1)) (m ((c : Thread nD τ).loc main_arg5)) (m ((c : Thread nD τ).loc main_arg6))) (m ((c : Thread nD τ).loc main_arg6)) := by
  refine (second_tail (W2 m ρ c)).trans ?_
  rw [W2_msg, W2_keep m ρ c main_arg5 (by decide) (first_keep_arg5 _), W2_keep m ρ c main_arg6 (by decide) (first_keep_arg6 _)]
  rfl

theorem W3_mask (c : Dev nD) : W3 m ρ c (Proc.devRef .tc main_v0)
    = shapeCast S3200000x1 (m ((c : Thread nD τ).loc main_arg3)) Facts₀.shapeCasts_S3200000_S3200000x1 :=
  (second_keep_v0 (W2 m ρ c)).trans (W2_mask m ρ c)
theorem W3_rel (c : Dev nD) : W3 m ρ c (Proc.devRef .tc main_v1)
    = shapeCast S3200000x1 (m ((c : Thread nD τ).loc main_arg7)) Facts₀.shapeCasts_S3200000_S3200000x1 :=
  (second_keep_v1 (W2 m ρ c)).trans (W2_rel m ρ c)
theorem W3_wt (c : Dev nD) : W3 m ρ c (Proc.devRef .tc main_arg2) = (m ((c : Thread nD τ).loc main_arg2)) :=
  (second_keep_arg2 (W2 m ρ c)).trans (W2_wt m ρ c)

/-- A buffer no window of either kernel call names and the first two stretches keep: as launched, at boundary 3. -/
theorem W3_keep (c : Dev nD) (b : Ref sig .tc) (hne : ∀ w, Pipeline.arrRef spec0 w ≠ b)
    (h1 : after (hostOps0 (F := Ideal)) (W0 m ρ c) (Proc.devRef .tc b) = W0 m ρ c (Proc.devRef .tc b))
    (h2 : after (hostOps1 (F := Ideal)) (W2 m ρ c) (Proc.devRef .tc b) = W2 m ρ c (Proc.devRef .tc b)) :
    W3 m ρ c (Proc.devRef .tc b) = m ((c : Thread nD τ).loc b) :=
  h2.trans (W2_keep m ρ c b hne h1)

/-! ## Boundary 4: after the second kernel call -/

theorem W4_msg (c : Dev nD) : W4 m ρ c (Proc.devRef .tc main_v51) = msg m c (rowsE (stepE (msg m c) (m ((c : Thread nD τ).loc main_arg1)) (m ((c : Thread nD τ).loc main_arg5)) (m ((c : Thread nD τ).loc main_arg6))) (m ((c : Thread nD τ).loc main_arg6))) := by
  refine (W4_arr m ρ c 4).trans ?_
  rw [Cert.KernelIdeal.Region1.arr_eq (V3 m ρ) c]
  show Cert.Msg.msgK (W3 m ρ c (Proc.devRef .tc main_v0)) (W3 m ρ c (Proc.devRef .tc main_v1)) (W3 m ρ c (Proc.devRef .tc main_arg2)) (W3 m ρ c (Proc.devRef .tc main_v50)) = _
  rw [W3_mask, W3_rel, W3_tail, W3_wt]
  rfl

theorem W4_keep (c : Dev nD) (b : Ref sig .tc) (hne0 : ∀ w, Pipeline.arrRef spec0 w ≠ b) (hne1 : ∀ w, Pipeline.arrRef spec1 w ≠ b)
    (h1 : after (hostOps0 (F := Ideal)) (W0 m ρ c) (Proc.devRef .tc b) = W0 m ρ c (Proc.devRef .tc b))
    (h2 : after (hostOps1 (F := Ideal)) (W2 m ρ c) (Proc.devRef .tc b) = W2 m ρ c (Proc.devRef .tc b)) :
    W4 m ρ c (Proc.devRef .tc b) = m ((c : Thread nD τ).loc b) :=
  (W4_of_ne m ρ c b hne1).trans (W3_keep m ρ c b hne0 h1 h2)

/-! ## Boundary 5: the results -/

/-- THE ENTITY RESULT of the kernel's program. -/
theorem W5_outE (c : Dev nD) : W5 m ρ c (Proc.devRef .tc main_v84) = outE (msg m c) (m ((c : Thread nD τ).loc main_arg1)) (m ((c : Thread nD τ).loc main_arg5)) (m ((c : Thread nD τ).loc main_arg6)) := by
  refine (third_outE (W4 m ρ c)).trans ?_
  rw [W4_msg, (W4_of_ne m ρ c main_v42 (by decide)).trans (W3_sumE m ρ c),
    W4_keep m ρ c main_arg5 (by decide) (by decide) (first_keep_arg5 _) (second_keep_arg5 _)]
  rfl

/-- THE USER RESULT of the kernel's program. -/
theorem W5_outU (c : Dev nD) : W5 m ρ c (Proc.devRef .tc main_v85)
    = outU (msg m c) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)) := by
  refine (third_outU (W4 m ρ c)).trans ?_
  rw [(W4_of_ne m ρ c main_v43 (by decide)).trans (W3_sumU m ρ c), (W4_of_ne m ρ c main_v33 (by decide)).trans (W3_ent m ρ c),
    W4_keep m ρ c main_arg4 (by decide) (by decide) (first_keep_arg4 _) (second_keep_arg4 _),
    W4_keep m ρ c main_arg8 (by decide) (by decide) (first_keep_arg8 _) (second_keep_arg8 _),
    W4_keep m ρ c main_arg9 (by decide) (by decide) (first_keep_arg9 _) (second_keep_arg9 _)]
  rfl

end Cert.KernelIdeal.Through

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.RefMsg.lean ====
/-
  The edge messages as the reference computes them, and their agreement with the kernel's.

  For an edge p with relation id e the reference forms  (T[p, q] · mask[p]) · weight[row, q],  where the row is
  e − 1 with a negative value counted from the table's end (16 added), read as a signed number and cut into
  0 … 15 by the row gather. The kernel forms  T[p, q] · (mask[p] · weight[clip(e − 1, 0, 15), q]).
  When every relation id is at least 1 the number e − 1 is not negative, so nothing is added and the gather's cut
  is the kernel's clip: both read the same row of the table. The two products then differ by a bracketing only,
  and the product of extended reals is associative whatever its factors, finite or not.
-/
import proofs.«412847_j996432412685_3_alg».proof.Proof.Gen.ReferenceIdeal
import proofs.«412847_j996432412685_3_alg».proof.Proof.Msg
import proofs.«412847_j996432412685_3_alg».proof.Proof.LibRowGather
import proofs.«412847_j996432412685_3_alg».proof.Proof.LibColumn
import Idealize.ShloMosaic.Lib.Pipeline.Value
import Idealize.ShloMosaic.Lib.ValueIdx

noncomputable section

namespace Cert.ReferenceIdeal.RefMsg

open Idealize.ShloMosaic Cert.ReferenceIdeal Cert.ReferenceIdeal.Facts₀ Cert.ReferenceIdeal.Facts
open Idealize.ShloMosaic.ValueIdx

/-- THE REFERENCE'S EDGE MESSAGES: the gathered rows `T`, times the edge's mask spread over the 64 columns, times the
    rows of the weight table gathered at the relation id less one (a negative value counted from the table's end). -/
def msgR (mask : FVec Ideal S3200000 .f32) (rel : IVec S3200000 32) (wt : FVec Ideal S16x64 .f32) (T : FVec Ideal S3200000x64 .f32) : FVec Ideal S3200000x64 .f32 :=
  mulf (mulf T (broadcastInDim S3200000x64 ![0, 1] bcast_S3200000x1_S3200000x64_0_1 (broadcastInDim S3200000x1 ![0] bcast_S3200000_S3200000x1_0 mask)))
    (Host.gather gather_S16x64_S3200000x1_S3200000x64_1_0_n_n_0_1_164 wt
      (broadcastInDim S3200000x1 ![0] bcast_S3200000_S3200000x1_0
        (select (cmpi .slt (subi rel (broadcastInDim S3200000 ![] bcast_S_S3200000 (constantI S_ 32 1#32))) (broadcastInDim S3200000 ![] bcast_S_S3200000 (constantI S_ 32 0#32)))
          (addi (subi rel (broadcastInDim S3200000 ![] bcast_S_S3200000 (constantI S_ 32 1#32))) (broadcastInDim S3200000 ![] bcast_S_S3200000 (constantI S_ 32 16#32)))
          (subi rel (broadcastInDim S3200000 ![] bcast_S_S3200000 (constantI S_ 32 1#32))))))

/-- A vector over the edges, made a column: at `(p, u)` it is the vector at `p`. -/
theorem column_apply {α : Type} (x : S3200000.Idx → α) (p : Fin 3200000) (u : Fin 1) :
    broadcastInDim S3200000x1 ![0] bcast_S3200000_S3200000x1_0 x (ix2 p u) = x (ix1 p) :=
  broadcastInDim_apply _ bcast_S3200000_S3200000x1_0 x (ix2 p u) (ix1 p) (fun a => match a with
    | ⟨0, _⟩ => by show p.val = if (3200000 : Nat) = 1 then 0 else p.val; rw [if_neg (by decide)])

/-- A column over the edges, spread over the 64 columns: at `(p, q)` it is the column's entry of row `p`. -/
theorem spread_apply {α : Type} (y : S3200000x1.Idx → α) (p : Fin 3200000) (q : Fin 64) :
    broadcastInDim S3200000x64 ![0, 1] bcast_S3200000x1_S3200000x64_0_1 y (ix2 p q) = y (ix2 p (0 : Fin 1)) :=
  broadcastInDim_apply _ bcast_S3200000x1_S3200000x64_0_1 y (ix2 p q) (ix2 p (0 : Fin 1)) (fun a => match a with
    | ⟨0, _⟩ => by show p.val = if (3200000 : Nat) = 1 then 0 else p.val; rw [if_neg (by decide)]
    | ⟨1, _⟩ => by show 0 = if (1 : Nat) = 1 then 0 else q.val; rw [if_pos rfl])

/-- The reference's row index for a relation id that is at least 1: the id less one, nothing added. -/
theorem wrap_of_pos (rel : IVec S3200000 32) (p : Fin 3200000) (h : (1#32).sle (rel (ix1 p)) = true) :
    select (cmpi .slt (subi rel (broadcastInDim S3200000 ![] bcast_S_S3200000 (constantI S_ 32 1#32))) (broadcastInDim S3200000 ![] bcast_S_S3200000 (constantI S_ 32 0#32)))
        (addi (subi rel (broadcastInDim S3200000 ![] bcast_S_S3200000 (constantI S_ 32 1#32))) (broadcastInDim S3200000 ![] bcast_S_S3200000 (constantI S_ 32 16#32)))
        (subi rel (broadcastInDim S3200000 ![] bcast_S_S3200000 (constantI S_ 32 1#32))) (ix1 p)
      = IntOp.subi (rel (ix1 p)) 1#32 := by
  rw [select_apply]
  show Scalar.select (BitVec.ofBool ((IntOp.subi (rel (ix1 p)) 1#32).slt 0#32)) _ (IntOp.subi (rel (ix1 p)) 1#32) = _
  rw [Cert.Msg.not_neg_of_pos _ h]
  exact select_zero _ _

/-- A start index read as a signed number and cut into the table's 16 rows. -/
def cut16 (b : BitVec 32) : Fin 16 := ⟨min b.toInt.toNat 15, by omega⟩

/-- The row gather of the 16-row table at a column of start indices `v`: at `(p, q)` it is the table at the row
    `v[p]` cut into 0 … 15, column `q`. -/
theorem gatherW_apply (wt : FVec Ideal S16x64 .f32) (v : IVec S3200000 32) (p : Fin 3200000) (q : Fin 64) :
    Host.gather gather_S16x64_S3200000x1_S3200000x64_1_0_n_n_0_1_164 wt
        (broadcastInDim S3200000x1 ![0] bcast_S3200000_S3200000x1_0 v) (ix2 p q)
      = wt (ix2 (cut16 (v (ix1 p))) q) := by
  have hg : gather_S16x64_S3200000x1_S3200000x64_1_0_n_n_0_1_164
      = Cert.LibRowGather.rowDims 16 64 3200000 gather_S16x64_S3200000x1_S3200000x64_1_0_n_n_0_1_164_wf := rfl
  rw [hg, Cert.LibRowGather.gather_rows_apply (by decide)]
  refine congrArg wt (congrArg (fun r => ix2 r q) (Fin.ext ?_))
  show min (broadcastInDim S3200000x1 ![0] bcast_S3200000_S3200000x1_0 v (ix2 p (0 : Fin 1))).toInt.toNat (16 - 1)
    = min (v (ix1 p)).toInt.toNat 15
  rw [column_apply]

/-- THE TWO MESSAGES AGREE when every relation id is at least 1 (signed). -/
theorem msgR_eq_msgK (mask : FVec Ideal S3200000 .f32) (rel : IVec S3200000 32) (wt : FVec Ideal S16x64 .f32)
    (hc : (⟨1, ![3200000]⟩ : Shape).ShapeCasts ⟨2, ![3200000, 1]⟩)
    (hpos : ∀ i : S3200000.Idx, (1#32).sle (rel i) = true) (T : FVec Ideal S3200000x64 .f32) :
    msgR mask rel wt T = Cert.Msg.msgK (shapeCast ⟨2, ![3200000, 1]⟩ mask hc) (shapeCast ⟨2, ![3200000, 1]⟩ rel hc) wt T := by
  funext j
  obtain ⟨p, q, rfl⟩ : ∃ (p : Fin 3200000) (q : Fin 64), j = ix2 p q := ⟨j 0, j 1, eq_ix2 j⟩
  rw [Cert.Msg.msgK_apply, Column.shapeCast_a_a1_apply mask hc p 0, Column.shapeCast_a_a1_apply rel hc p 0]
  unfold msgR
  rw [mulf_apply, mulf_apply, spread_apply, column_apply, gatherW_apply, wrap_of_pos rel p (hpos _), mul_assoc]
  -- the gather's cut of the id less one is the kernel's clipped row
  have hr : cut16 (IntOp.subi (rel (ix1 p)) 1#32) = Cert.Msg.relRow (rel (ix1 p)) :=
    Fin.ext (Cert.Msg.relRow_of_pos _ (hpos _)).symm
  rw [hr]

end Cert.ReferenceIdeal.RefMsg

end
-- ==== Proof.RefTerm.lean ====
/-
  The reference program's two results as the shared composition over the reference's message function.

  The reference is one straight line of array operations; its run states each result as the operations' composed term
  of the arguments. That term is, operation for operation, the shared composition of Spec.lean with the reference's
  own edge messages  (T · mask) · weight[rel − 1]  in the message slot: the two sides differ only in the names under
  which the two printed programs spell the same shapes and dimension records.
-/
import proofs.«412847_j996432412685_3_alg».proof.Proof.Gen.ReferenceIdeal.Run
import proofs.«412847_j996432412685_3_alg».proof.Proof.Spec
import proofs.«412847_j996432412685_3_alg».proof.Proof.RefMsg

set_option maxRecDepth 16384

noncomputable section

namespace Cert.ReferenceIdeal.RefTerm

open Idealize.ShloMosaic Idealize.ShloMosaic.TcCoe Idealize.SL.Sem Cert.ReferenceIdeal Cert.ReferenceIdeal.Value
open Cert.KernelIdeal.Spec (outE outU)

variable (m : (ℓ : Loc nD τ sig) → Buf (Elt Ideal) ℓ) (c : Dev nD)

set_option maxHeartbeats 1000000 in
/-- The reference's entity result. -/
theorem outE_eq : res_main_v106 m c
    = outE (Cert.ReferenceIdeal.RefMsg.msgR (m ((c.tc : Thread nD τ).loc main_arg3)) (m ((c.tc : Thread nD τ).loc main_arg7)) (m ((c.tc : Thread nD τ).loc main_arg2))) (m ((c.tc : Thread nD τ).loc main_arg1)) (m ((c.tc : Thread nD τ).loc main_arg5)) (m ((c.tc : Thread nD τ).loc main_arg6)) := by
  unfold res_main_v106
  rfl

set_option maxHeartbeats 1000000 in
/-- The reference's user result. -/
theorem outU_eq : res_main_v107 m c
    = outU (Cert.ReferenceIdeal.RefMsg.msgR (m ((c.tc : Thread nD τ).loc main_arg3)) (m ((c.tc : Thread nD τ).loc main_arg7)) (m ((c.tc : Thread nD τ).loc main_arg2))) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := by
  unfold res_main_v107
  rfl

end Cert.ReferenceIdeal.RefTerm

end
-- ==== Proof.PreRead.lean ====
/-
  The precondition, read back at the relation ids. The printed precondition is a one-bit word: the conjunction of six
  "for all" statements, each a reduction by `and` (from the word 1) of an array of one-bit comparison results. Its last,
  outermost conjunct is the reduction of the comparison  edge_type[i] ≥ 1  (signed) over all 3,200,000 edges.
  If the whole word is 1 then, a conjunction of one-bit words being 1 exactly when both are, the last conjunct is 1;
  a reduction by `and` that came out 1 met only 1s, so the comparison is 1 at every edge i; the comparison word at i
  is the bit of  1 ≤ edge_type[i]  (signed), the constant 1 broadcast from a scalar reading 1 at every index.
  Hence every relation id is at least 1 as a signed number.
-/
import proofs.«412847_j996432412685_3_alg».proof.Proof.Gen.Pre_finite_inputs
import Idealize.ShloMosaic.Lib.ReduceAll
import Idealize.ShloMosaic.Lib.ValueIdx

noncomputable section

namespace Cert.Pre_finite_inputs.Read

open Idealize.ShloMosaic Cert.Pre_finite_inputs

/-- The scalar shape has one index. -/
instance subsingleton_scalar_idx : Subsingleton S_.Idx := ⟨fun a b => funext fun d => d.elim0⟩

/-- The one-bit word of a boolean is 1 exactly when the boolean is true. -/
theorem ofBool_eq_one (b : Bool) : BitVec.ofBool b = 1#1 ↔ b = true := by cases b <;> decide

/-- If the precondition word is 1, every relation id is at least 1 as a signed number. -/
theorem rel_pos {F : FTy → Type} [FloatOps F] (a0 : FVec F S50000x64 .f32) (a1 : FVec F S100000x64 .f32)
    (a2 : FVec F S16x64 .f32) (a3 : FVec F S3200000 .f32) (a4 : FVec F S2500000 .f32) (a5 a6 a7 : IVec S3200000 32)
    (a8 a9 : IVec S2500000 32)
    (h : Cert.Pre_finite_inputs.fn (F := F) a0 a1 a2 a3 a4 a5 a6 a7 a8 a9 = fun _ => 1#1) :
    ∀ i : S3200000.Idx, (1#32).sle (a7 i) = true := by
  intro i
  -- the word at the scalar's one index
  have h0 := congrFun h ValueIdx.ix0
  dsimp only [fn, fn_part1] at h0
  -- the outermost conjunction: its right operand is the "for all" over the relation ids
  have h1 := (IntOp.andi_eq_one.1 h0).2
  -- a reduction by `and` that is 1 met a 1 at every edge
  have h2 := Host.reduce_andi_all _ _ _ _ _ h1 i
  -- the comparison word at edge i is the bit of 1 ≤ edge_type[i], signed
  exact (ofBool_eq_one _).1 h2

end Cert.Pre_finite_inputs.Read

end
-- ==== Proof.lean ====
/-
  Two rounds of relation-weighted message passing over a knowledge graph: the kernel's program against the reference.

  Each round gathers the tail entity's row for every edge, scales it by the edge's mask and by the row of the relation
  weight table the edge's relation id selects, sums the scaled rows per head entity and divides every row of the sum by
  the larger of its length and 1e-12; the user side does the same with the interaction values. The results are the
  entity and user tables plus the two rounds' updates.

  The two programs differ in ONE place, the edge messages. The reference computes  (row · mask) · weight[id − 1], the
  row index wrapped as a negative index would be and cut into the table by the gather. The kernel computes
  row · (onehot(clip(id − 1, 0, 15)) · mask) @ weight. Over the extended reals a product with zero is zero and
  the product is associative, so the kernel's message is  row · (mask · weight[clip(id − 1, 0, 15)])  for ANY table and
  mask (Msg.lean, Region0.lean, Region1.lean); and for a relation id that is at least 1 — the added precondition —
  the two row indices agree (RefMsg.lean). Everything else is the same composition of array operations on both sides
  (Spec.lean), reached on the kernel side by walking the program's segments (KernelRun.lean, Stretch.lean,
  Through.lean) and on the reference side by its run (RefTerm.lean).

  The frames of the two kernel programs are the generated frame certificates; the reference's is its run with the
  results dropped; no rewrite was applied in printing the idealized kernel, so `preserves` is trivial.
-/
import proofs.«412847_j996432412685_3_alg».proof.Defs
import proofs.«412847_j996432412685_3_alg».proof.Proof.Gen.Kernel
import proofs.«412847_j996432412685_3_alg».proof.Proof.Gen.Kernel.Frame
import proofs.«412847_j996432412685_3_alg».proof.Proof.Gen.KernelIdeal
import proofs.«412847_j996432412685_3_alg».proof.Proof.Gen.KernelIdeal.Frame
import proofs.«412847_j996432412685_3_alg».proof.Proof.Gen.ReferenceIdeal
import proofs.«412847_j996432412685_3_alg».proof.Proof.Gen.ReferenceIdeal.Run
import proofs.«412847_j996432412685_3_alg».proof.Proof.Gen.Pre_finite_inputs
import proofs.«412847_j996432412685_3_alg».proof.Proof.KernelRun
import proofs.«412847_j996432412685_3_alg».proof.Proof.Through
import proofs.«412847_j996432412685_3_alg».proof.Proof.RefMsg
import proofs.«412847_j996432412685_3_alg».proof.Proof.RefTerm
import proofs.«412847_j996432412685_3_alg».proof.Proof.PreRead
import Idealize.ShloMosaic.Adequacy
import Idealize.ShloMosaic.Init

noncomputable section

namespace Cert.Proof

open Idealize.ShloMosaic Idealize.SL.Sem
open Cert.KernelIdeal.Spec (outE outU)

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the shared composition over the kernel's edge messages: the kernel's program by its
    segments, the reference by its run, its own edge messages being the kernel's where every relation id is at
    least 1. -/
theorem algebraic : Cert.algebraic_KernelIdeal_ReferenceIdeal := by
  intro m ρ m' ρ' hpre hagree
  refine ⟨fun c => outE (Cert.KernelIdeal.Through.msg m c) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => outU (Cert.KernelIdeal.Through.msg m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Through.W5_outE m ρ c),
        (h c).2.1.trans (Cert.KernelIdeal.Through.W5_outU m ρ c), (h c).2.2⟩)
      (Cert.KernelIdeal.GenP.run_values m ρ)
  · refine (θ_run Cert.ReferenceIdeal.defs _ _).mono (fun _ h c => ?_) (Cert.ReferenceIdeal.Value.run (F := Ideal) m' ρ')
    obtain ⟨e0, e1, e2, e3, e4, e5, e6, e7, e8, e9⟩ := hagree c
    -- the precondition, read at the relation ids
    have hpos := Cert.Pre_finite_inputs.Read.rel_pos _ _ _ _ _ _ _ _ _ _ (hpre c)
    -- so the reference's edge messages are the kernel's
    have hmsg : Cert.ReferenceIdeal.RefMsg.msgR (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg2)) = Cert.KernelIdeal.Through.msg m c :=
      funext (Cert.ReferenceIdeal.RefMsg.msgR_eq_msgK _ _ _ _ hpos)
    refine ⟨(h c).1.trans ?_, (h c).2.1.trans ?_, (h c).2.2⟩
    · rw [Cert.ReferenceIdeal.RefTerm.outE_eq, e1, e2, e3, e5, e6, e7, hmsg]
    · rw [Cert.ReferenceIdeal.RefTerm.outU_eq, e0, e1, e2, e3, e4, e5, e6, e7, e8, e9, hmsg]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
